-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 27
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1024, .bf16⟩
  | .hbm, ⟨17, _⟩ => ⟨S4096x1, .i32⟩
  | .hbm, ⟨18, _⟩ => ⟨S1x4096, .i32⟩
  | .hbm, ⟨19, _⟩ => ⟨S1x4096, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1x512, .f32⟩
  | .local _ .vmem, ⟨11, _⟩ => ⟨S1x512, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_33 : BitVec 32 := 0#32
  let v67 : BitVec 1 := Scalar.cmpi .ne v66 c0_i32_33
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  shapeCasts_S4096_S4096x1 : S4096.ShapeCasts S4096x1
  shapeCasts_S4096_S1x4096 : S4096.ShapeCasts S1x4096
  shapeCasts_S4096x1_S1x4096 : S4096x1.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  transposes_S512x1024_p1_0_S1024x512 : S512x1024.Transposes [1, 0] S1024x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  reducesTo_S4096x1_S_d0_1 : S4096x1.ReducesTo [0, 1] S_
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .i32 = 32 ∨ (Rect.block (s := S1x4096) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S1024x4096, .f32⟩
  | .hbm, ⟨13, _⟩ => ⟨S4096x4096, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S4096x4096, .i1⟩
  | .hbm, ⟨41, _⟩ => ⟨S4096x4096, .i1⟩
  | .hbm, ⟨42, _⟩ => ⟨S4096x4096, .f32⟩
  | .hbm, ⟨43, _⟩ => ⟨S4096x4096, .i1⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  reducesTo_S4096x1_S_d0_1 : S4096x1.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Base.lean ====
/-
  What the hand-written modules about the word-level kernel's region share: the buffer contents the region is
  entered with (the host operations before it, applied to the launch memory), the share of each window's array
  the region holds (the two windows that stage the one normalised-rows array hold a half each, the others the
  whole), and the host operations after the region as one function of the region's result (a total sum, a
  division by the row count, a product with one).
-/
import proofs.«400854_j84688165142763_3_alg».proof.Proof.Gen.Kernel.Launch
import proofs.«400854_j84688165142763_3_alg».proof.Proof.Gen.Kernel.Skeleton
import proofs.«400854_j84688165142763_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffer contents when the region is entered: the launch memory after the host operations that
    come before the region (the row norms, then the normalised rows, their squared norms and the reshapes). -/
abbrev V0 (c : Dev nD) : Valuation τ sig (Elt F) :=
  StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- The share of its array each window holds through the region: windows 0 and 1 read the same array of
    normalised rows and hold one half of it each; every other window's array is its own. -/
abbrev qshare : Fin 7 → PosShare TreeShare
  | ⟨0, _⟩ => fullShare.left
  | ⟨1, _⟩ => fullShare.right
  | _ => fullShare

/-- The host operations after the region, as one function of the region's result: the sum of all the rows'
    losses, divided by the number of rows, times one. -/
def tailFn (y : FVec F S4096x1 .f32) : FVec F S_ .f32 :=
  mulf (Host.divf (Host.reduceAdd y (constant S_ .f32 0x00000000#32) Facts₀.reducesTo_S4096x1_S_d0_1 Facts₀.h_S_)
      (constant S_ .f32 0x45800000#32)) (constant S_ .f32 0x3F800000#32)

end Cert.Kernel.Hand

end
-- ==== Proof.K.Runs.lean ====
/-
  What the three control cases of the word-level kernel's body share.  The body branches twice on the
  column-tile coordinate j of the 4×8 grid: the reset of the three running row statistics (sum of the
  same-label distances, minimum of the other-label distances, maximum distance) at j = 0, and the store of
  the rows' losses at j = 7.  Here: the two branch conditions with their closed forms over the 32 grid
  points; the staging memrefs the body is called on and the three scratch memrefs; each window's block
  read off its array as the region finds it; that an input window's staging buffer holds that block at
  every point, fetched there or not; where the output window is idle, live and not written back; and the
  region's invariant as the three scratch buffers owned at some contents.
-/
import proofs.«400854_j84688165142763_3_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The reset branch's condition (the column tile is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first column tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- The finalize branch's condition (the column tile is 7), from the grid coordinates. -/
abbrev cond0_1 (i : grid0.Coords) : Prop := k0_cond2 i = 1#1
/-- It holds at the points ≡ 7 (mod 8): the last column tile of each row tile. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The memrefs the body is called on -/

/-- Window 0's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- Scratch 0 (the running sum of same-label distances): a whole buffer of the kernel's own, carried from column tile to column tile. -/
abbrev scM0_0 : Memref sig .tc .vmem S1024x1 .f32 := Memref.whole cc0_scratch0
/-- The same as a view: what it holds is stated through it. -/
abbrev VS0_0 : View sig .tc .vmem S1024x1 .f32 := scM0_0.view
/-- Scratch 1 (the running minimum of other-label distances): a whole buffer of the kernel's own, carried from column tile to column tile. -/
abbrev scM0_1 : Memref sig .tc .vmem S1024x1 .f32 := Memref.whole cc0_scratch1
/-- The same as a view: what it holds is stated through it. -/
abbrev VS0_1 : View sig .tc .vmem S1024x1 .f32 := scM0_1.view
/-- Scratch 2 (the running maximum distance): a whole buffer of the kernel's own, carried from column tile to column tile. -/
abbrev scM0_2 : Memref sig .tc .vmem S1024x1 .f32 := Memref.whole cc0_scratch2
/-- The same as a view: what it holds is stated through it. -/
abbrev VS0_2 : View sig .tc .vmem S1024x1 .f32 := scM0_2.view
/-- One staging buffer of the output window, through which its contents are stated. -/
abbrev VO0_6 : View sig .tc .vmem S1024x1 .f32 := (Memref.whole cc0_stg6_0 : Memref sig .tc .vmem S1024x1 .f32).view

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves
    the block in place; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data whose array is the region-entry contents and whose body leaves
    the block in place; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved), for any proof data whose array is the region-entry contents and whose body leaves
    the block in place; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved), for any proof data whose array is the region-entry contents and whose body leaves
    the block in place; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved), for any proof data whose array is the region-entry contents and whose body leaves
    the block in place; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved), for any proof data whose array is the region-entry contents and whose body leaves
    the block in place; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the reset is taken and the finalize is not, the output window is idle: nothing is stored into it. -/
theorem idleAt0_6_A : ∀ t : Fin cfg0.N, cond0_0 (grid0.coords t) → ¬cond0_1 (grid0.coords t) → cfg0.idle 6 (grid0.coords t) = true := by decide +kernel
/-- There the output's block is not written back. -/
theorem noFlush0_6_A : ∀ t : Fin cfg0.N, cond0_0 (grid0.coords t) → ¬cond0_1 (grid0.coords t) → (cfg0.win 6).flush t = false := by decide +kernel
/-- Where neither branch is taken, the output window is idle: nothing is stored into it. -/
theorem idleAt0_6_B : ∀ t : Fin cfg0.N, ¬cond0_0 (grid0.coords t) → ¬cond0_1 (grid0.coords t) → cfg0.idle 6 (grid0.coords t) = true := by decide +kernel
/-- There the output's block is not written back. -/
theorem noFlush0_6_B : ∀ t : Fin cfg0.N, ¬cond0_0 (grid0.coords t) → ¬cond0_1 (grid0.coords t) → (cfg0.win 6).flush t = false := by decide +kernel
/-- Where the finalize is taken, the output window is live: the rows' losses are stored into it. -/
theorem liveAt0_6_C : ∀ t : Fin cfg0.N, ¬cond0_0 (grid0.coords t) → cond0_1 (grid0.coords t) → cfg0.idle 6 (grid0.coords t) = false := by decide +kernel

/-! ## The region's invariant -/

/-- The region's invariant with the three scratch operands as memrefs owned at some contents: what the body
    obligation hands the body at each point and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.K.RunA.lean ====
/-
  The word-level kernel's whole body at the first column tile of a row tile (the reset of the three running row statistics taken, the store of the rows' losses not): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT THE FIRST COLUMN TILE of a row tile (the reset taken, the finalize not), with the proof that on
    whole memrefs — the six inputs' at their contents, the output's at contents `xi6` handed back untouched (nothing is
    stored into it here), the three scratch at anything — the body runs to a continuation holding the inputs as they
    were, the output as it was, and each scratch with its pieces written: first the seed (zero for the running sum,
    the large constant for the running minimum, zero for the running maximum), then the seed combined with this
    tile's row statistic (the sum of the same-label off-diagonal distances, the minimum of the other-label distances,
    the maximum distance). The pieces are found by unification when the buffers are handed to the continuation. -/
noncomputable def kernelRun0_A (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunB.lean ====
/-
  The word-level kernel's whole body at a middle column tile of a row tile (neither the reset of the three running row statistics nor the store of the rows' losses taken): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.K.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT A MIDDLE COLUMN TILE of a row tile (neither the reset nor the finalize taken), with the proof
    that on whole memrefs — the six inputs' at their contents, the output's at contents `xi6` handed back untouched
    (nothing is stored into it here), the three scratch at the contents `xs0`, `xs1`, `xs2` the column tile before
    left — the body runs to a continuation holding the inputs as they were, the output as it was, and each scratch
    with its piece written: what it held combined with this tile's row statistic (the running sum plus the sum of
    the same-label off-diagonal distances, the running minimum against the minimum of the other-label distances, the
    running maximum against the maximum distance). The pieces are found by unification when the buffers are handed
    to the continuation. -/
noncomputable def kernelRun0_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunC.lean ====
/-
  The word-level kernel's whole body at the last column tile of a row tile (the store of the rows' losses taken, the reset of the three running row statistics not): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.K.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT THE LAST COLUMN TILE of a row tile (the finalize taken, the reset not), with the proof that on
    whole memrefs — the six inputs' at their contents, the output's at anything, the three scratch at the contents
    `xs0`, `xs1`, `xs2` the column tile before left — the body runs to a continuation holding the inputs as they
    were, each scratch with its piece written (what it held combined with this tile's row statistic), and the
    output with its piece written: the rows' losses, the larger of zero and the finished sum plus one half minus the
    smaller of the finished minimum and the finished maximum. The pieces are found by unification when the buffers
    are handed to the continuation. -/
noncomputable def kernelRun0_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.K.Frame.lean ====
/-
  What the region of the word-level kernel leaves, grid point by grid point.  The grid is 4 row tiles by 8 column
  tiles; along a row tile the body carries three per-row statistics in scratch buffers (the sum of the
  same-label squared distances, the minimum of the other-label ones, the maximum of all), resets them at the
  row tile's first column tile, feeds them every column tile, and at the last stores the rows' losses
  max(sum + 1/2 − min(minimum, maximum), 0) into the output window, which is idle at the other seven points.
  Here: what each control case's stores leave in the output window and the three scratch buffers (and that they
  cover them); these contents after every point, by recursion along the grid; the region's invariant (the three
  scratch buffers at those contents); the region's proof data; and the body obligation at every point.
-/
import proofs.«400854_j84688165142763_3_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each control case's stores leave -/

/-- At the first column tile of a row tile (the reset taken, the losses not stored) nothing is stored into the losses' window: it is idle there and not written back, so
    this reading of no pieces over arbitrary contents is a placeholder that nothing consults. -/
def out0_A_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- At the first column tile of a row tile (the reset taken, the losses not stored) the stores into scratch 0 (the running sum of same-label distances) tile all its 1024 rows, so they cover it. -/
theorem scover0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What that point leaves in scratch 0 (the running sum of same-label distances): its stored pieces read back. -/
def sout0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- At the first column tile of a row tile (the reset taken, the losses not stored) the stores into scratch 1 (the running minimum of other-label distances) tile all its 1024 rows, so they cover it. -/
theorem scover0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What that point leaves in scratch 1 (the running minimum of other-label distances): its stored pieces read back. -/
def sout0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- At the first column tile of a row tile (the reset taken, the losses not stored) the stores into scratch 2 (the running maximum distance) tile all its 1024 rows, so they cover it. -/
theorem scover0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What that point leaves in scratch 2 (the running maximum distance): its stored pieces read back. -/
def sout0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- At an inner column tile (neither branch taken) nothing is stored into the losses' window: it is idle there and not written back, so
    this reading of no pieces over arbitrary contents is a placeholder that nothing consults. -/
def out0_B_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- At an inner column tile (neither branch taken) the stores into scratch 0 (the running sum of same-label distances) tile all its 1024 rows, so they cover it. -/
theorem scover0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1024x1.size (by sl_kernel_rfl) y

/-- What that point leaves in scratch 0 (the running sum of same-label distances): its stored pieces read back. -/
def sout0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- At an inner column tile (neither branch taken) the stores into scratch 1 (the running minimum of other-label distances) tile all its 1024 rows, so they cover it. -/
theorem scover0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1024x1.size (by sl_kernel_rfl) y

/-- What that point leaves in scratch 1 (the running minimum of other-label distances): its stored pieces read back. -/
def sout0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- At an inner column tile (neither branch taken) the stores into scratch 2 (the running maximum distance) tile all its 1024 rows, so they cover it. -/
theorem scover0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1024x1.size (by sl_kernel_rfl) y

/-- What that point leaves in scratch 2 (the running maximum distance): its stored pieces read back. -/
def sout0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- At the last column tile of a row tile (the losses stored) the stores into the losses' window tile its whole block of 1024 rows, so they cover it. -/
theorem cover0_C_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S1024x1.size (by sl_kernel_rfl) y

/-- What the last column tile leaves in the losses' window: for each of the tile's 1024 rows
    max(sum + 1/2 − min(minimum, maximum), 0) of the three running statistics, as the stored pieces read back. -/
def out0_C_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- At the last column tile of a row tile (the losses stored) the stores into scratch 0 (the running sum of same-label distances) tile all its 1024 rows, so they cover it. -/
theorem scover0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1024x1.size (by sl_kernel_rfl) y

/-- What that point leaves in scratch 0 (the running sum of same-label distances): its stored pieces read back. -/
def sout0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- At the last column tile of a row tile (the losses stored) the stores into scratch 1 (the running minimum of other-label distances) tile all its 1024 rows, so they cover it. -/
theorem scover0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1024x1.size (by sl_kernel_rfl) y

/-- What that point leaves in scratch 1 (the running minimum of other-label distances): its stored pieces read back. -/
def sout0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- At the last column tile of a row tile (the losses stored) the stores into scratch 2 (the running maximum distance) tile all its 1024 rows, so they cover it. -/
theorem scover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1024x1.size (by sl_kernel_rfl) y

/-- What that point leaves in scratch 2 (the running maximum distance): its stored pieces read back. -/
def sout0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the losses' window and the three scratch buffers hold after each grid point -/

/-- The accumulation along a row tile. After the body at grid point `n` (row tile `n / 8`, column tile `n % 8`): the
    losses' window, then the running sum, the running minimum and the running maximum. At a row tile's first
    column tile the three statistics are reset and then fed the tile (so nothing of the point before enters); at
    every later one they are fed the tile on top of what the point before left; at the last the losses are stored
    from them. No point is both a first and a last column tile. -/
def outsAt0 (c : Dev nD) : (n : ℕ) → n < cfg0.N → Vec F S1024x1 .f32 × Vec F S1024x1 .f32 × Vec F S1024x1 .f32 × Vec F S1024x1 .f32
  | 0, hn =>
        (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

/-- At a first column tile: the reset point's contents. -/
theorem outsAt0_A (c : Dev nD) (t : Fin cfg0.N) (h0 : t.val % 8 = 0) (h1 : ¬t.val % 8 = 7) :
    outsAt0 m c t.val t.isLt =
        (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- At an inner column tile: the tile fed on top of what the point before left. -/
theorem outsAt0_B (c : Dev nD) (t : Fin cfg0.N) (h0 : ¬t.val % 8 = 0) (h1 : ¬t.val % 8 = 7) :
    outsAt0 m c t.val t.isLt =
        (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the tile fed on top of what the point before left, and the losses stored. -/
theorem outsAt0_C (c : Dev nD) (t : Fin cfg0.N) (h0 : ¬t.val % 8 = 0) (h1 : t.val % 8 = 7) :
    outsAt0 m c t.val t.isLt =
        (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before grid point `n`. Before the first point the three scratch buffers hold anything (the launch's invariant);
    afterwards each holds what the point before left in it: the running sum, minimum and maximum so far along the
    row tile. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n`: the three statistics at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the three statistics at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The region's proof data -/

/-- The proof data of the region on core `c`: each window's array as the region finds it; after the body at a point
    each input's staging buffer still at its block and the losses' window at the first component of `outsAt0`;
    the invariant `PhiS`; the two windows that read the one array of normalised rows hold a half of it each, every
    other window its whole array; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := qshare w
  owed _ := 0

/-- The proof data's arrays are the region-entry contents (the definition projected, the host operations before the
    region never unfolded). -/
theorem A_eq (c : Dev nD) (w : Fin cfg0.W) : (dats m 0 c).A w = V m c (Pipeline.arrRef spec0 w) := by
  dsimp only [dats]

/-- The shares are the stated ones. -/
theorem q_eq (c : Dev nD) (w : Fin cfg0.W) : (dats m 0 c).q w = qshare w := by
  dsimp only [dats]

/-- Nothing is owed at any point. -/
theorem owed_eq (c : Dev nD) (t : Fin (cfg0.N + 1)) : (dats m 0 c).owed t = 0 := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

/-- What the body is called with at point `t`: the invariant, the core's dues, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns: the invariant at the next point, the dues, each staging buffer at what the body leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any grid point. The six inputs' staging buffers hold their blocks. By the column tile: at the first
    of a row tile the three statistics are handed over at whatever they hold (before the very first point anything;
    at a later row tile's start what the row tile before ended with, which the reset discards) and come back reset
    and fed this tile; at an inner one they are handed over at what the point before left and come back fed this
    tile; at the last likewise, and the losses' window, handed over at anything, comes back at the losses. At the
    first and inner column tiles the losses' window is idle and handed back as found. The core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- the first column tile of a row tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 8 = 7
    · -- the last column tile of a row tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0 sout0_C_1 sout0_C_2; (try dsimp only)
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _)
    · -- an inner column tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0 sout0_B_1 sout0_B_2; (try dsimp only)
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the region's proof data, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the three statistics hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.K.Launch.lean ====
/-
  The whole program's run, from any proof data of its one pipeline.

  @main is four stretches: the row norms (a module-local function's five host operations), thirteen host operations
  that normalise the rows, square-sum them and reshape the labels and the squared norms, the kernel region, and six
  host operations that total the region's per-row losses, divide by the row count and multiply by one. The region's
  windows 0 and 1 both stage the ONE array of normalised rows (as row tiles and as column tiles), so the windows'
  arrays are six buffers behind seven windows: at the region's entry that array's full points-to is split into its
  left and right halves, one per window (the shares `qshare` names), and at the exit the halves are joined again;
  each other array goes whole to its one window. Every other unscoped buffer bypasses the region.

  `run_of`: for ANY proof data whose arrays are the region-entry contents, whose shares are `qshare`, that owes nothing,
  with a body obligation and the region invariant's two ends, every weakly fair execution of @main terminates; the
  result buffer then holds `tailFn` of the region's final result array, and the two argument arrays are as launched
  (no host operation writes them and no window stages them). The run is the segments launch theorem over the list
  [host, host, region, host]; the thread state between segments is every unscoped buffer held at a valuation
  (`W0`, `W1`, `V0`, `V1`, `V2` in @main's order) beside the generator register and the core owing nothing.
-/
import proofs.«400854_j84688165142763_3_alg».proof.Proof.K.Base
import Idealize.ShloMosaic.Lib.Pipeline.Regions

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No core owes another anything: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
abbrev 𝒱₀ : Variants := Variants.none
/-- The pipeline library's algebra is the whole user algebra. -/
abbrev EP : Emb (UR sig nD τ) (MT nD τ sig Unit (Elt F) ℕ (UR sig nD τ) ℕ) := emb₁

/-! ## The buffer contents along @main -/

/-- Core `c`'s buffers at launch, -/
abbrev W0 (c : Dev nD) : Valuation τ sig (Elt F) := fun b => m (c, b)
/-- and after the row norms. -/
abbrev W1 (c : Dev nD) : Valuation τ sig (Elt F) := StableHlo.after hostOps0 (W0 m c)

/-- The region-entry contents are those after the second host stretch run from the first's. -/
theorem V0_eq (c : Dev nD) : V0 m c = StableHlo.after hostOps0_1 (W1 m c) := by
  show StableHlo.after (List.flatten [hostOps0, hostOps0_1]) (W0 m c) = _
  rw [List.flatten_cons, List.flatten_cons, List.flatten_nil, List.append_nil, StableHlo.after_append]

variable (dats : (p : Fin 1) → (c : Dev nD) → Dat τ (Elt F) Unit ℕ (UR sig nD τ) ℕ (cfgs p) c)

/-- The contents the region leaves: the result array at what the write-backs made it, every other buffer as at entry. -/
abbrev V1 (c : Dev nD) : Valuation τ sig (Elt F) :=
  Function.update (V0 m c) (Proc.devRef .tc main_v12) ((dats 0 c).arrAt 6 cfg0.N)
/-- The contents at the return: the last host stretch has run. -/
abbrev V2 (c : Dev nD) : Valuation τ sig (Elt F) := StableHlo.after hostOps1 (V1 m dats c)

/-- What rides beside the buffers up to the region: the generator register and the core owing nothing, no wait recorded; -/
abbrev Rin (c : Dev nD) : sProp 𝕄 := iprop((∃ r, prngReg c r) ∗ owes (c.tc : Thread nD τ) (0 : CellTallies nD τ sig Unit) ∅)
/-- and after it: the waits the pipeline recorded are not named. -/
abbrev Rout (c : Dev nD) : sProp 𝕄 := iprop((∃ r, prngReg c r) ∗ ∃ W, owes (c.tc : Thread nD τ) (0 : CellTallies nD τ sig Unit) W)

/-! ## The windows' arrays: six buffers behind seven windows -/

/-- The buffers behind the windows' arrays, one by one: the normalised rows (read by windows 0 and 1), the labels as a
    column and as a row, the squared norms as a column and as a row, the result. -/
theorem arrBufs_list (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v8) ↦{fullShare} W main_v8) ∗ (((c.tc : Thread nD τ).loc main_v9) ↦{fullShare} W main_v9)
          ∗ (((c.tc : Thread nD τ).loc main_v10) ↦{fullShare} W main_v10) ∗ (((c.tc : Thread nD τ).loc main_v7) ↦{fullShare} W main_v7)
          ∗ (((c.tc : Thread nD τ).loc main_v11) ↦{fullShare} W main_v11) ∗ (((c.tc : Thread nD τ).loc main_v12) ↦{fullShare} W main_v12)) := by
  unfold Pipeline.arrBufs
  rw [bigSep_eq_bigSepL_of_eq [main_v8, main_v9, main_v10, main_v7, main_v11, main_v12] (by decide) (by decide)]
  rfl

/-- Each window holds its array at the share `qshare` names: an input at the proof data's, the output whole. -/
theorem share_eq (hq : ∀ c w, (dats 0 c).q w = qshare w) (c : Dev nD) (w : Fin 7) : (dats 0 c).share w = qshare w := by
  have h : ∀ w : Fin 7, (if (cfg0.win w).isOut then fullShare else qshare w) = qshare w := fun
    | 0 => rfl | 1 => rfl | 2 => rfl | 3 => rfl | 4 => rfl | 5 => rfl | 6 => rfl
    | ⟨_ + 7, h⟩ => absurd h (Nat.not_lt.2 (Nat.le_add_left _ _))
  unfold Dat.share
  rw [hq]
  exact h w

/-- The pipeline's arrays at contents `Fa`, window by window: the two halves of the normalised rows, then the five
    arrays held whole. -/
theorem arrays_list (hq : ∀ c w, (dats 0 c).q w = qshare w) (c : Dev nD)
    (Fa : (w : Fin 7) → Buf (Elt F) ((cfg0.win w).arr.view.loc (c.tc : Thread nD τ))) :
    ((dats 0 c).arrays Fa : sProp 𝕄)
      = iprop((((c.tc : Thread nD τ).loc main_v8) ↦{fullShare.left} Fa 0) ∗ (((c.tc : Thread nD τ).loc main_v8) ↦{fullShare.right} Fa 1)
          ∗ (((c.tc : Thread nD τ).loc main_v9) ↦{fullShare} Fa 2) ∗ (((c.tc : Thread nD τ).loc main_v10) ↦{fullShare} Fa 3)
          ∗ (((c.tc : Thread nD τ).loc main_v7) ↦{fullShare} Fa 4) ∗ (((c.tc : Thread nD τ).loc main_v11) ↦{fullShare} Fa 5)
          ∗ (((c.tc : Thread nD τ).loc main_v12) ↦{fullShare} Fa 6)) := by
  have h : ((dats 0 c).arrays Fa : sProp 𝕄)
      = bigSep Finset.univ fun w : Fin 7 => (((c.tc : Thread nD τ).loc (Pipeline.arrRef spec0 w)) ↦{qshare w} Fa w : sProp 𝕄) := by
    unfold Dat.arrays
    exact bigSep_congr fun w _ => by rw [(arr_whole0 w).set_eq_univ, share_eq dats hq c w]
  rw [h, bigSep_W0]
  rfl

/-- ENTRY: the array of normalised rows, held whole, is dealt in halves to the two windows that read it; each other
    array goes whole to its one window. -/
theorem entry_split (hA : ∀ c w, (dats 0 c).A w = V m c (Pipeline.arrRef spec0 w)) (hq : ∀ c w, (dats 0 c).q w = qshare w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [show ((dats 0 c).arrAt · 0) = fun w => V m c (Pipeline.arrRef spec0 w) from funext fun w => hA c w,
    arrBufs_list, arrays_list dats hq c]
  iintro ⟨H8, H9, H10, H7, H11, H12⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  isplitl [H7]; · iexact H7
  isplitl [H11]; · iexact H11
  iexact H12

/-- An input window's array holds at the end what it held at entry. -/
theorem arrAt_input (hA : ∀ c w, (dats 0 c).A w = V m c (Pipeline.arrRef spec0 w)) (c : Dev nD) (w : Fin 7) (hw : (cfg0.win w).isOut = false) :
    (dats 0 c).arrAt w cfg0.N = V m c (Pipeline.arrRef spec0 w) :=
  ((dats 0 c).arrAt_in w hw _).trans (hA c w)

/-- EXIT: the two halves of the normalised rows are joined again; the result array comes back at its final contents. -/
theorem exit_join (hA : ∀ c w, (dats 0 c).A w = V m c (Pipeline.arrRef spec0 w)) (hq : ∀ c w, (dats 0 c).q w = qshare w) (c : Dev nD) :
    (dats 0 c).arrays ((dats 0 c).arrAt · cfg0.N)
      ⊢ (Pipeline.arrBufs (Ix := Unit) (Name := ℕ) (U := UR sig nD τ) (Lvl := ℕ) spec0 c (fun b => V1 m dats c (Proc.devRef .tc b)) : sProp 𝕄) := by
  rw [arrBufs_list, arrays_list dats hq c]
  rw [arrAt_input m dats hA c 0 rfl, arrAt_input m dats hA c 1 rfl, arrAt_input m dats hA c 2 rfl, arrAt_input m dats hA c 3 rfl,
    arrAt_input m dats hA c 4 rfl, arrAt_input m dats hA c 5 rfl]
  rw [show V1 m dats c (Proc.devRef .tc main_v8) = V m c main_v8 from Function.update_of_ne (StableHlo.devRef_ne_of_ne (by decide)) _ _,
    show V1 m dats c (Proc.devRef .tc main_v9) = V m c main_v9 from Function.update_of_ne (StableHlo.devRef_ne_of_ne (by decide)) _ _,
    show V1 m dats c (Proc.devRef .tc main_v10) = V m c main_v10 from Function.update_of_ne (StableHlo.devRef_ne_of_ne (by decide)) _ _,
    show V1 m dats c (Proc.devRef .tc main_v7) = V m c main_v7 from Function.update_of_ne (StableHlo.devRef_ne_of_ne (by decide)) _ _,
    show V1 m dats c (Proc.devRef .tc main_v11) = V m c main_v11 from Function.update_of_ne (StableHlo.devRef_ne_of_ne (by decide)) _ _,
    show V1 m dats c (Proc.devRef .tc main_v12) = (dats 0 c).arrAt 6 cfg0.N from Function.update_self ..]
  iintro ⟨H8l, H8r, H9, H10, H7, H11, H12⟩
  isplitl [H8l H8r]
  · iapply (pointsTo_share (PosShare.mem_left_op_right fullShare)).2
    isplitl [H8l] <;> iassumption
  isplitl [H9]; · iexact H9
  isplitl [H10]; · iexact H10
  isplitl [H7]; · iexact H7
  isplitl [H11]; · iexact H11
  iexact H12

/-- The buffers no window stages hold after the region what they held before it. -/
theorem rest_V1 (c : Dev nD) :
    (Pipeline.unscopedRest (Ix := Unit) (Name := ℕ) (U := UR sig nD τ) (Lvl := ℕ) spec0 c (V m c) : sProp 𝕄)
      = Pipeline.unscopedRest spec0 c (fun b => V1 m dats c (Proc.devRef .tc b)) := by
  unfold Pipeline.unscopedRest
  refine bigSep_congr fun b hb => ?_
  have hne : b ≠ main_v12 := fun e => (Finset.mem_sdiff.mp hb).2 (Finset.mem_image.mpr ⟨6, Finset.mem_univ _, e.symm⟩)
  have e : V1 m dats c (Proc.devRef .tc b) = V m c b := Function.update_of_ne (StableHlo.devRef_ne_of_ne hne) _ _
  beta_reduce
  rw [e]

/-- Every unscoped buffer held at a valuation is the windows' arrays' buffers and the rest at it. -/
theorem held_split (c : Dev nD) (W : Valuation τ sig (Elt F)) :
    (StableHlo.held (c.tc : Thread nD τ) (Pipeline.ucRefs τ sig) W : sProp 𝕄)
      = iprop(Pipeline.arrBufs (Ix := Unit) (Name := ℕ) (U := UR sig nD τ) (Lvl := ℕ) spec0 c (fun b => W (Proc.devRef .tc b))
          ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

/-! ## The final read -/

/-- The result buffer at the return: the host tail of the region's result array. -/
theorem V2_v15 (c : Dev nD) : V2 m dats c (Proc.devRef .tc main_v15) = tailFn ((dats 0 c).arrAt 6 cfg0.N) := by
  show StableHlo.after hostOps1 (V1 m dats c) (Proc.devRef .tc main_v15) = _
  after_results
  rw [show V1 m dats c (Proc.devRef .tc main_v12) = (dats 0 c).arrAt 6 cfg0.N from Function.update_self ..]
  rfl
/-- No host operation and no window writes an argument: each holds at the return what it held at launch. -/
theorem V2_arg0 (c : Dev nD) : V2 m dats c (Proc.devRef .tc main_arg0) = m ((c.tc : Thread nD τ).loc main_arg0) := by
  show StableHlo.after hostOps1 (V1 m dats c) (Proc.devRef .tc main_arg0) = _
  after_results
  rw [show V1 m dats c (Proc.devRef .tc main_arg0) = V0 m c (Proc.devRef .tc main_arg0) from Function.update_of_ne (StableHlo.devRef_ne_of_ne (by decide)) _ _]
  show StableHlo.after (List.flatten [hostOps0, hostOps0_1]) (W0 m c) (Proc.devRef .tc main_arg0) = _
  rw [List.flatten_cons, List.flatten_cons, List.flatten_nil, List.append_nil, StableHlo.after_append]
  after_results
theorem V2_arg1 (c : Dev nD) : V2 m dats c (Proc.devRef .tc main_arg1) = m ((c.tc : Thread nD τ).loc main_arg1) := by
  show StableHlo.after hostOps1 (V1 m dats c) (Proc.devRef .tc main_arg1) = _
  after_results
  rw [show V1 m dats c (Proc.devRef .tc main_arg1) = V0 m c (Proc.devRef .tc main_arg1) from Function.update_of_ne (StableHlo.devRef_ne_of_ne (by decide)) _ _]
  show StableHlo.after (List.flatten [hostOps0, hostOps0_1]) (W0 m c) (Proc.devRef .tc main_arg1) = _
  rw [List.flatten_cons, List.flatten_cons, List.flatten_nil, List.append_nil, StableHlo.after_append]
  after_results

/-- An unscoped TensorCore reference is among the buffers the host stretches run within. -/
theorem mem_ucRefs (b : Ref sig .tc) (hb : b.isScoped = false) : Proc.devRef .tc b ∈ Pipeline.ucRefs τ sig :=
  Finset.mem_filter.mpr ⟨StableHlo.devRef_mem_tcRefs b, by simpa using hb⟩

/-! ## The segments -/

local notation "ℍ" => Pipeline.HostSeg (Name := ℕ) (U := UR sig nD τ) (pcfgs (F := F)) defs₀ 𝒱₀ L lv

theorem ops_sub {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The row norms, from the launch contents. -/
def segNorm : ℍ := Pipeline.HostSeg.ofOps _ _ _ _ _ (Pipeline.ucRefs τ sig) hostOps0 (ops_sub hostOps0_sub) hostOps0_fresh (W0 m) Rin
/-- The normalised rows, their squared norms and the reshapes. -/
def segPrep : ℍ := Pipeline.HostSeg.ofOps _ _ _ _ _ (Pipeline.ucRefs τ sig) hostOps0_1 (ops_sub hostOps0_1_sub) hostOps0_1_fresh (W1 m) Rin
/-- The total, its quotient by the row count, the product with one. -/
def segTail : ℍ := Pipeline.HostSeg.ofOps _ _ _ _ _ (Pipeline.ucRefs τ sig) hostOps1 (ops_sub hostOps1_sub) hostOps1_fresh (V1 m dats) Rout

/-- The core owing nothing, no wait recorded, is the pipeline's first point's account; -/
theorem owes_enter (howed : ∀ c t, (dats 0 c).owed t = 0) (c : Dev nD) :
    (owes (c.tc : Thread nD τ) (0 : CellTallies nD τ sig Unit) ∅ : sProp 𝕄) ⊢ (dats 0 c).owesAt () 0 := by
  unfold Pipeline.Dat.owesAt Pipeline.owesWithin
  rw [howed c 0]
  iintro HO
  iexists ∅
  isplitr
  · ipureintro; simp
  iexact HO

/-- and its last point's account is the core owing nothing, whatever waits were recorded. -/
theorem owes_leave (howed : ∀ c t, (dats 0 c).owed t = 0) (c : Dev nD) :
    ((dats 0 c).owesAt () (Fin.last cfg0.N) : sProp 𝕄) ⊢ iprop(∃ W, owes (c.tc : Thread nD τ) (0 : CellTallies nD τ sig Unit) W) := by
  unfold Pipeline.Dat.owesAt Pipeline.owesWithin
  rw [howed c]
  iintro ⟨%W, -, HO⟩
  iexists W
  iexact HO

-- a launch lemma stated over `cfgs p` meets the pinned configuration only when unification may unfold plain
-- definitions in a metavariable's type
set_option backward.isDefEq.respectTransparency.types false in
/-- THE REGION: entered from what the host stretches left — the array of normalised rows dealt in halves to the two
    windows that read it, the other arrays whole, every other unscoped buffer bypassing —, left with the result array at
    its final contents and every other buffer as it was. -/
def region0 (hA : ∀ c w, (dats 0 c).A w = V m c (Pipeline.arrRef spec0 w)) (hq : ∀ c w, (dats 0 c).q w = qshare w)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c.tc : Thread nD τ) (Pipeline.ucRefs τ sig) (StableHlo.after hostOps0_1 (W1 m c)) ∗ Rin c)
  post c := iprop(StableHlo.held (c.tc : Thread nD τ) (Pipeline.ucRefs τ sig) (V1 m dats c) ∗ Rout c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [← V0_eq m c, held_split c (V0 m c)]
    iintro ⟨⟨⟨Ha, Hz⟩, Hp, HO⟩, -, -⟩
    ihave Ha' := (entry_split m dats hA hq c) $$ Ha
    ihave HO' := (owes_enter dats howed c) $$ HO
    imodintro
    isplitl [Ha']; · iexact Ha'
    isplitr
    · unfold Pipeline.prefHeld; rw [show (Finset.univ : Finset (Fin 0)) = ∅ from rfl, BI.bigSep_empty]; iempintro
    isplitl [HO']; · iexact HO'
    isplitl [Hp]; · iexact Hp
    iexact Hz
  hin c := by
    refine BIBase.Entails.trans ?_ (hin c)
    unfold Pipeline.ΦA
    iintro ⟨HX, -, Hr⟩
    isplitl [Hr]; · iexact Hr
    iexact HX
  hout c := by
    refine (hout c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Ha' := (exit_join m dats hA hq c) $$ Ha
    ihave HZ' := (Entails.of_eq (rest_V1 m dats c)) $$ HZ
    ihave Hh := (Entails.of_eq (held_split c (V1 m dats c)).symm) $$ [Ha' HZ']
    · isplitl [Ha'] <;> iassumption
    ihave HO' := (owes_leave dats howed c) $$ HO
    imodintro
    isplitl [Hh]; · iexact Hh
    isplitl [HY]; · iexact HY
    iexact HO'

/-- @main as the list of its four segments. -/
abbrev segs (hA : ∀ c w, (dats 0 c).A w = V m c (Pipeline.arrRef spec0 w)) (hq : ∀ c w, (dats 0 c).q w = qshare w)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    List (Pipeline.Seg (pcfgs (F := F)) adm dats () defs₀ 𝒱₀ L lv) :=
  [.host (segNorm m), .host (segPrep m), .region (region0 m dats hA hq howed hbody hin hout), .host (segTail m dats)]

/-- The last thread state: every unscoped buffer at the contents at the return, the generator register. -/
abbrev Tₙ (c : Dev nD) : sProp 𝕄 :=
  iprop(StableHlo.held (c.tc : Thread nD τ) (Pipeline.ucRefs τ sig) (V2 m dats c) ∗ ∃ r, prngReg c r)

-- the launch theorem's implicit arguments are found by unifying its conclusion with this one, which takes unfolding
-- plain definitions in a metavariable's type
set_option backward.isDefEq.respectTransparency.types false in
/-- THE RUN, from any proof data of the one pipeline whose arrays are the region-entry contents, whose shares are
    `qshare`, that owes nothing, with its body obligation and the invariant's two ends: from any memory with zero
    counters every weakly fair execution of @main on the TensorCores terminates, and every final state has the result
    buffer at the host tail of the region's final result array and both arguments as launched. -/
theorem run_of (dats : (p : Fin 1) → (c : Dev nD) → Dat τ (Elt F) Unit ℕ (UR sig nD τ) ℕ (cfgs p) c)
    (hA : ∀ c w, (dats 0 c).A w = V m c (Pipeline.arrRef spec0 w)) (hq : ∀ c w, (dats 0 c).q w = qshare w) (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
        r.2.mem ((c.tc : Thread nD τ).loc main_v15) = tailFn ((dats 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm dats () cellOf_inj EP defs₀ 𝒱₀ L lv m ρ main (segs m dats hA hq howed hbody hin hout)
    (fun c Q => by
      have e : main (F := F) c = Pipeline.Seg.run (segs m dats hA hq howed hbody hin hout) := by
        rw [main_chain c, Pipeline.Seg.run_eq_chain]; rfl
      rw [e])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ Rin c)) (Tₙ := Tₙ m dats)
    (hch := ⟨fun _ => .rfl, fun _ => .rfl, fun _ => .rfl, fun _ => .rfl, fun c => by
      show iprop(StableHlo.held (c.tc : Thread nD τ) (Pipeline.ucRefs τ sig) (V2 m dats c) ∗ Rout c)
        ⊢ iprop(Tₙ m dats c ∗ ∃ W, owes (c.tc : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c.tc : Thread nD τ).loc b)) = StableHlo.held (c.tc : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => s.mem ((c.tc : Thread nD τ).loc main_v15) = tailFn ((dats 0 c).arrAt 6 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨Hh, -⟩, HSI⟩
      unfold StableHlo.held
      ihave Hr := (pointsTo_read_all (Pipeline.ucRefs τ sig) (fun b => (((c.tc : Thread nD τ)).1, b)) (V2 m dats c) s') $$ [Hh HSI]
      · isplitl [Hh] <;> iassumption
      icases Hr with ⟨%hr, HSI⟩
      imodintro
      isplitr
      · ipureintro
        exact ⟨(hr _ (mem_ucRefs main_v15 rfl)).trans (V2_v15 m dats c), (hr _ (mem_ucRefs main_arg0 rfl)).trans (V2_arg0 m dats c),
          (hr _ (mem_ucRefs main_arg1 rfl)).trans (V2_arg1 m dats c)⟩
      iexact HSI)
    (hQ := fun _ h => h)

/-- info: 'Cert.Kernel.Hand.run_of' depends on axioms: [propext, Classical.choice, Quot.sound] -/
#guard_msgs in #print axioms run_of

end Cert.Kernel.Hand

end
-- ==== Proof.KI.Base.lean ====
/-
  What the hand-written modules about the idealized kernel's region share: the buffer contents the region is
  entered with (the host operations before it, applied to the launch memory), the share of each window's array
  the region holds (the two windows that stage the one normalised-rows array hold a half each, the others the
  whole), and the host operations after the region as one function of the region's result (a total sum, a
  division by the row count, a product with one).
-/
import proofs.«400854_j84688165142763_3_alg».proof.Proof.Gen.KernelIdeal.Launch
import proofs.«400854_j84688165142763_3_alg».proof.Proof.Gen.KernelIdeal.Skeleton
import proofs.«400854_j84688165142763_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffer contents when the region is entered: the launch memory after the host operations that
    come before the region (the row norms, then the normalised rows, their squared norms and the reshapes). -/
abbrev V0 (c : Dev nD) : Valuation τ sig (Elt F) :=
  StableHlo.after (List.flatten [hostOps0, hostOps0_1]) (fun b => m (c, b))
/-- The same, read at a TensorCore reference. -/
abbrev V (c : Dev nD) (b : Ref sig .tc) : Buf (Elt F) ((c : Thread nD τ).loc b) := V0 m c (Proc.devRef .tc b)

/-- The share of its array each window holds through the region: windows 0 and 1 read the same array of
    normalised rows and hold one half of it each; every other window's array is its own. -/
abbrev qshare : Fin 7 → PosShare TreeShare
  | ⟨0, _⟩ => fullShare.left
  | ⟨1, _⟩ => fullShare.right
  | _ => fullShare

/-- The host operations after the region, as one function of the region's result: the sum of all the rows'
    losses, divided by the number of rows, times one. -/
def tailFn (y : FVec F S4096x1 .f32) : FVec F S_ .f32 :=
  mulf (Host.divf (Host.reduceAdd y (constant S_ .f32 0x00000000#32) Facts₀.reducesTo_S4096x1_S_d0_1 Facts₀.h_S_)
      (constant S_ .f32 0x45800000#32)) (constant S_ .f32 0x3F800000#32)

end Cert.KernelIdeal.Hand

end
-- ==== Proof.KI.Runs.lean ====
/-
  What the three control cases of the idealized kernel's body share.  The body branches twice on the
  column-tile coordinate j of the 4×8 grid: the reset of the three running row statistics (sum of the
  same-label distances, minimum of the other-label distances, maximum distance) at j = 0, and the store of
  the rows' losses at j = 7.  Here: the two branch conditions with their closed forms over the 32 grid
  points; the staging memrefs the body is called on and the three scratch memrefs; each window's block
  read off its array as the region finds it; that an input window's staging buffer holds that block at
  every point, fetched there or not; where the output window is idle, live and not written back; and the
  region's invariant as the three scratch buffers owned at some contents.
-/
import proofs.«400854_j84688165142763_3_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The reset branch's condition (the column tile is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): the first column tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- The finalize branch's condition (the column tile is 7), from the grid coordinates. -/
abbrev cond0_1 (i : grid0.Coords) : Prop := k0_cond2 i = 1#1
/-- It holds at the points ≡ 7 (mod 8): the last column tile of each row tile. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## The memrefs the body is called on -/

/-- Window 0's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
/-- Scratch 0 (the running sum of same-label distances): a whole buffer of the kernel's own, carried from column tile to column tile. -/
abbrev scM0_0 : Memref sig .tc .vmem S1024x1 .f32 := Memref.whole cc0_scratch0
/-- The same as a view: what it holds is stated through it. -/
abbrev VS0_0 : View sig .tc .vmem S1024x1 .f32 := scM0_0.view
/-- Scratch 1 (the running minimum of other-label distances): a whole buffer of the kernel's own, carried from column tile to column tile. -/
abbrev scM0_1 : Memref sig .tc .vmem S1024x1 .f32 := Memref.whole cc0_scratch1
/-- The same as a view: what it holds is stated through it. -/
abbrev VS0_1 : View sig .tc .vmem S1024x1 .f32 := scM0_1.view
/-- Scratch 2 (the running maximum distance): a whole buffer of the kernel's own, carried from column tile to column tile. -/
abbrev scM0_2 : Memref sig .tc .vmem S1024x1 .f32 := Memref.whole cc0_scratch2
/-- The same as a view: what it holds is stated through it. -/
abbrev VS0_2 : View sig .tc .vmem S1024x1 .f32 := scM0_2.view
/-- One staging buffer of the output window, through which its contents are stated. -/
abbrev VO0_6 : View sig .tc .vmem S1024x1 .f32 := (Memref.whole cc0_stg6_0 : Memref sig .tc .vmem S1024x1 .f32).view

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves
    the block in place; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (unfetched, the
    block index has not moved), for any proof data whose array is the region-entry contents and whose body leaves
    the block in place; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (unfetched, the
    block index has not moved), for any proof data whose array is the region-entry contents and whose body leaves
    the block in place; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (unfetched, the
    block index has not moved), for any proof data whose array is the region-entry contents and whose body leaves
    the block in place; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (unfetched, the
    block index has not moved), for any proof data whose array is the region-entry contents and whose body leaves
    the block in place; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (unfetched, the
    block index has not moved), for any proof data whose array is the region-entry contents and whose body leaves
    the block in place; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- Window 5 is never idle (an input). -/
theorem liveAt0_5 : ∀ t : Fin cfg0.N, cfg0.idle 5 (grid0.coords t) = false := by decide +kernel
/-- Where the reset is taken and the finalize is not, the output window is idle: nothing is stored into it. -/
theorem idleAt0_6_A : ∀ t : Fin cfg0.N, cond0_0 (grid0.coords t) → ¬cond0_1 (grid0.coords t) → cfg0.idle 6 (grid0.coords t) = true := by decide +kernel
/-- There the output's block is not written back. -/
theorem noFlush0_6_A : ∀ t : Fin cfg0.N, cond0_0 (grid0.coords t) → ¬cond0_1 (grid0.coords t) → (cfg0.win 6).flush t = false := by decide +kernel
/-- Where neither branch is taken, the output window is idle: nothing is stored into it. -/
theorem idleAt0_6_B : ∀ t : Fin cfg0.N, ¬cond0_0 (grid0.coords t) → ¬cond0_1 (grid0.coords t) → cfg0.idle 6 (grid0.coords t) = true := by decide +kernel
/-- There the output's block is not written back. -/
theorem noFlush0_6_B : ∀ t : Fin cfg0.N, ¬cond0_0 (grid0.coords t) → ¬cond0_1 (grid0.coords t) → (cfg0.win 6).flush t = false := by decide +kernel
/-- Where the finalize is taken, the output window is live: the rows' losses are stored into it. -/
theorem liveAt0_6_C : ∀ t : Fin cfg0.N, ¬cond0_0 (grid0.coords t) → cond0_1 (grid0.coords t) → cfg0.idle 6 (grid0.coords t) = false := by decide +kernel

/-! ## The region's invariant -/

/-- The region's invariant with the three scratch operands as memrefs owned at some contents: what the body
    obligation hands the body at each point and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.KI.RunA.lean ====
/-
  The idealized kernel's whole body at the first column tile of a row tile (the reset of the three running row statistics taken, the store of the rows' losses not): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT THE FIRST COLUMN TILE of a row tile (the reset taken, the finalize not), with the proof that on
    whole memrefs — the six inputs' at their contents, the output's at contents `xi6` handed back untouched (nothing is
    stored into it here), the three scratch at anything — the body runs to a continuation holding the inputs as they
    were, the output as it was, and each scratch with its pieces written: first the seed (zero for the running sum,
    the large constant for the running minimum, zero for the running maximum), then the seed combined with this
    tile's row statistic (the sum of the same-label off-diagonal distances, the minimum of the other-label distances,
    the maximum distance). The pieces are found by unification when the buffers are handed to the continuation. -/
noncomputable def kernelRun0_A (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunB.lean ====
/-
  The idealized kernel's whole body at a middle column tile of a row tile (neither the reset of the three running row statistics nor the store of the rows' losses taken): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT A MIDDLE COLUMN TILE of a row tile (neither the reset nor the finalize taken), with the proof
    that on whole memrefs — the six inputs' at their contents, the output's at contents `xi6` handed back untouched
    (nothing is stored into it here), the three scratch at the contents `xs0`, `xs1`, `xs2` the column tile before
    left — the body runs to a continuation holding the inputs as they were, the output as it was, and each scratch
    with its piece written: what it held combined with this tile's row statistic (the running sum plus the sum of
    the same-label off-diagonal distances, the running minimum against the minimum of the other-label distances, the
    running maximum against the maximum distance). The pieces are found by unification when the buffers are handed
    to the continuation. -/
noncomputable def kernelRun0_B (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunC.lean ====
/-
  The idealized kernel's whole body at the last column tile of a row tile (the store of the rows' losses taken, the reset of the three running row statistics not): its weakest-precondition
  triple on any whole staging and scratch memrefs, together with the pieces its stores leave in the output's buffer
  and in each scratch buffer. The body is run statement by statement over its skeleton of memory operations and named
  payloads; each of its two branches is decided by the case's hypotheses.
-/
import proofs.«400854_j84688165142763_3_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging buffer and in each of the three scratch buffers, as pieces
    (last first), AT THE LAST COLUMN TILE of a row tile (the finalize taken, the reset not), with the proof that on
    whole memrefs — the six inputs' at their contents, the output's at anything, the three scratch at the contents
    `xs0`, `xs1`, `xs2` the column tile before left — the body runs to a continuation holding the inputs as they
    were, each scratch with its piece written (what it held combined with this tile's row statistic), and the
    output with its piece written: the rows' losses, the larger of zero and the finished sum plus one half minus the
    smaller of the finished minimum and the finished maximum. The pieces are found by unification when the buffers
    are handed to the continuation. -/
noncomputable def kernelRun0_C (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    Σ' (L6 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.Frame.lean ====
/-
  What the region of the idealized kernel leaves, grid point by grid point.  The grid is 4 row tiles by 8 column
  tiles; along a row tile the body carries three per-row statistics in scratch buffers (the sum of the
  same-label squared distances, the minimum of the other-label ones, the maximum of all), resets them at the
  row tile's first column tile, feeds them every column tile, and at the last stores the rows' losses
  max(sum + 1/2 − min(minimum, maximum), 0) into the output window, which is idle at the other seven points.
  Here: what each control case's stores leave in the output window and the three scratch buffers (and that they
  cover them); these contents after every point, by recursion along the grid; the region's invariant (the three
  scratch buffers at those contents); the region's proof data; and the body obligation at every point.
-/
import proofs.«400854_j84688165142763_3_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each control case's stores leave -/

/-- At the first column tile of a row tile (the reset taken, the losses not stored) nothing is stored into the losses' window: it is idle there and not written back, so
    this reading of no pieces over arbitrary contents is a placeholder that nothing consults. -/
def out0_A_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- At the first column tile of a row tile (the reset taken, the losses not stored) the stores into scratch 0 (the running sum of same-label distances) tile all its 1024 rows, so they cover it. -/
theorem scover0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.1 S1024x1.size (by sl_kernel_rfl) y

/-- What that point leaves in scratch 0 (the running sum of same-label distances): its stored pieces read back. -/
def sout0_A_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.1)

/-- At the first column tile of a row tile (the reset taken, the losses not stored) the stores into scratch 1 (the running minimum of other-label distances) tile all its 1024 rows, so they cover it. -/
theorem scover0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What that point leaves in scratch 1 (the running minimum of other-label distances): its stored pieces read back. -/
def sout0_A_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- At the first column tile of a row tile (the reset taken, the losses not stored) the stores into scratch 2 (the running maximum distance) tile all its 1024 rows, so they cover it. -/
theorem scover0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What that point leaves in scratch 2 (the running maximum distance): its stored pieces read back. -/
def sout0_A_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- At an inner column tile (neither branch taken) nothing is stored into the losses' window: it is idle there and not written back, so
    this reading of no pieces over arbitrary contents is a placeholder that nothing consults. -/
def out0_B_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- At an inner column tile (neither branch taken) the stores into scratch 0 (the running sum of same-label distances) tile all its 1024 rows, so they cover it. -/
theorem scover0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1024x1.size (by sl_kernel_rfl) y

/-- What that point leaves in scratch 0 (the running sum of same-label distances): its stored pieces read back. -/
def sout0_B_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- At an inner column tile (neither branch taken) the stores into scratch 1 (the running minimum of other-label distances) tile all its 1024 rows, so they cover it. -/
theorem scover0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1024x1.size (by sl_kernel_rfl) y

/-- What that point leaves in scratch 1 (the running minimum of other-label distances): its stored pieces read back. -/
def sout0_B_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- At an inner column tile (neither branch taken) the stores into scratch 2 (the running maximum distance) tile all its 1024 rows, so they cover it. -/
theorem scover0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1024x1.size (by sl_kernel_rfl) y

/-- What that point leaves in scratch 2 (the running maximum distance): its stored pieces read back. -/
def sout0_B_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-- At the last column tile of a row tile (the losses stored) the stores into the losses' window tile its whole block of 1024 rows, so they cover it. -/
theorem cover0_C_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 S1024x1.size (by sl_kernel_rfl) y

/-- What the last column tile leaves in the losses' window: for each of the tile's 1024 rows
    max(sum + 1/2 − min(minimum, maximum), 0) of the three running statistics, as the stored pieces read back. -/
def out0_C_6 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1)

/-- At the last column tile of a row tile (the losses stored) the stores into scratch 0 (the running sum of same-label distances) tile all its 1024 rows, so they cover it. -/
theorem scover0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 S1024x1.size (by sl_kernel_rfl) y

/-- What that point leaves in scratch 0 (the running sum of same-label distances): its stored pieces read back. -/
def sout0_C_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1)

/-- At the last column tile of a row tile (the losses stored) the stores into scratch 1 (the running minimum of other-label distances) tile all its 1024 rows, so they cover it. -/
theorem scover0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 S1024x1.size (by sl_kernel_rfl) y

/-- What that point leaves in scratch 1 (the running minimum of other-label distances): its stored pieces read back. -/
def sout0_C_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1)

/-- At the last column tile of a row tile (the losses stored) the stores into scratch 2 (the running maximum distance) tile all its 1024 rows, so they cover it. -/
theorem scover0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 S1024x1.size (by sl_kernel_rfl) y

/-- What that point leaves in scratch 2 (the running maximum distance): its stored pieces read back. -/
def sout0_C_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1)

/-! ## What the losses' window and the three scratch buffers hold after each grid point -/

/-- The accumulation along a row tile. After the body at grid point `n` (row tile `n / 8`, column tile `n % 8`): the
    losses' window, then the running sum, the running minimum and the running maximum. At a row tile's first
    column tile the three statistics are reset and then fed the tile (so nothing of the point before enters); at
    every later one they are fed the tile on top of what the point before left; at the last the losses are stored
    from them. No point is both a first and a last column tile. -/
def outsAt0 (c : Dev nD) : (n : ℕ) → n < cfg0.N → Vec F S1024x1 .f32 × Vec F S1024x1 .f32 × Vec F S1024x1 .f32 × Vec F S1024x1 .f32
  | 0, hn =>
        (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩),
         sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2.1 (outsAt0 c n (Nat.lt_of_succ_lt hn)).2.2.2)

/-- At a first column tile: the reset point's contents. -/
theorem outsAt0_A (c : Dev nD) (t : Fin cfg0.N) (h0 : t.val % 8 = 0) (h1 : ¬t.val % 8 = 7) :
    outsAt0 m c t.val t.isLt =
        (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t),
         sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- At an inner column tile: the tile fed on top of what the point before left. -/
theorem outsAt0_B (c : Dev nD) (t : Fin cfg0.N) (h0 : ¬t.val % 8 = 0) (h1 : ¬t.val % 8 = 7) :
    outsAt0 m c t.val t.isLt =
        (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the tile fed on top of what the point before left, and the losses stored. -/
theorem outsAt0_C (c : Dev nD) (t : Fin cfg0.N) (h0 : ¬t.val % 8 = 0) (h1 : t.val % 8 = 7) :
    outsAt0 m c t.val t.isLt =
        (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
         sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before grid point `n`. Before the first point the three scratch buffers hold anything (the launch's invariant);
    afterwards each holds what the point before left in it: the running sum, minimum and maximum so far along the
    row tile. The generator register is at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n`: the three statistics at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the three statistics at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The region's proof data -/

/-- The proof data of the region on core `c`: each window's array as the region finds it; after the body at a point
    each input's staging buffer still at its block and the losses' window at the first component of `outsAt0`;
    the invariant `PhiS`; the two windows that read the one array of normalised rows hold a half of it each, every
    other window its whole array; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := qshare w
  owed _ := 0

/-- The proof data's arrays are the region-entry contents (the definition projected, the host operations before the
    region never unfolded). -/
theorem A_eq (c : Dev nD) (w : Fin cfg0.W) : (dats m 0 c).A w = V m c (Pipeline.arrRef spec0 w) := by
  dsimp only [dats]

/-- The shares are the stated ones. -/
theorem q_eq (c : Dev nD) (w : Fin cfg0.W) : (dats m 0 c).q w = qshare w := by
  dsimp only [dats]

/-- Nothing is owed at any point. -/
theorem owed_eq (c : Dev nD) (t : Fin (cfg0.N + 1)) : (dats m 0 c).owed t = 0 := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body at a grid point -/

/-- What the body is called with at point `t`: the invariant, the core's dues, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns: the invariant at the next point, the dues, each staging buffer at what the body leaves there. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any grid point. The six inputs' staging buffers hold their blocks. By the column tile: at the first
    of a row tile the three statistics are handed over at whatever they hold (before the very first point anything;
    at a later row tile's start what the row tile before ended with, which the reset discards) and come back reset
    and fed this tile; at an inner one they are handed over at what the point before left and come back fed this
    tile; at the last likewise, and the losses' window, handed over at anything, comes back at the losses. At the
    first and inner column tiles the losses' window is idle and handed back as found. The core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · by_cases h1 : t.val % 8 = 7
    · exfalso; omega
    · -- the first column tile of a row tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        isplitl [HS2]; · iexists _; iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 8 = 7
    · -- the last column tile of a row tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6]
      rw [outsAt0_C m c t h0 h1]
      unfold out0_C_6 sout0_C_0 sout0_C_1 sout0_C_2; (try dsimp only)
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        isplitl [HS2]; · iexact HS2
        iintro ⟨H0, H1, H2, H3, H4, H5, ⟨%e6, H6⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _)
    · -- an inner column tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B m c t h0 h1]
      unfold sout0_B_0 sout0_B_1 sout0_B_2; (try dsimp only)
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        isplitl [HS2]; · iexact HS2
        iintro ⟨H0, H1, H2, H3, H4, H5, H6, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The body obligation of the region's proof data, at every grid point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the three statistics hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Launch.lean ====
/-
  The whole program's run, from any proof data of its one pipeline.

  @main is four stretches: the row norms (a module-local function's five host operations), thirteen host operations
  that normalise the rows, square-sum them and reshape the labels and the squared norms, the kernel region, and six
  host operations that total the region's per-row losses, divide by the row count and multiply by one. The region's
  windows 0 and 1 both stage the ONE array of normalised rows (as row tiles and as column tiles), so the windows'
  arrays are six buffers behind seven windows: at the region's entry that array's full points-to is split into its
  left and right halves, one per window (the shares `qshare` names), and at the exit the halves are joined again;
  each other array goes whole to its one window. Every other unscoped buffer bypasses the region.

  `run_of`: for ANY proof data whose arrays are the region-entry contents, whose shares are `qshare`, that owes nothing,
  with a body obligation and the region invariant's two ends, every weakly fair execution of @main terminates; the
  result buffer then holds `tailFn` of the region's final result array, and the two argument arrays are as launched
  (no host operation writes them and no window stages them). The run is the segments launch theorem over the list
  [host, host, region, host]; the thread state between segments is every unscoped buffer held at a valuation
  (`W0`, `W1`, `V0`, `V1`, `V2` in @main's order) beside the generator register and the core owing nothing.
-/
import proofs.«400854_j84688165142763_3_alg».proof.Proof.KI.Base
import Idealize.ShloMosaic.Lib.Pipeline.Regions

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's parameters -/

/-- No core owes another anything: no level is assigned. -/
abbrev L : GSem nD τ sig → Finset Unit := fun _ => ∅
abbrev lv : GSem nD τ sig → Unit → ℕ := fun _ _ => 0
/-- The prefetched tables' admissible contents: there is no table. -/
abbrev adm : (p : Fin 1) → (pcfgs (F := F) p).Adm := fun p => (cfgs p).toPCfg_adm
abbrev 𝒱₀ : Variants := Variants.none
/-- The pipeline library's algebra is the whole user algebra. -/
abbrev EP : Emb (UR sig nD τ) (MT nD τ sig Unit (Elt F) ℕ (UR sig nD τ) ℕ) := emb₁

/-! ## The buffer contents along @main -/

/-- Core `c`'s buffers at launch, -/
abbrev W0 (c : Dev nD) : Valuation τ sig (Elt F) := fun b => m (c, b)
/-- and after the row norms. -/
abbrev W1 (c : Dev nD) : Valuation τ sig (Elt F) := StableHlo.after hostOps0 (W0 m c)

/-- The region-entry contents are those after the second host stretch run from the first's. -/
theorem V0_eq (c : Dev nD) : V0 m c = StableHlo.after hostOps0_1 (W1 m c) := by
  show StableHlo.after (List.flatten [hostOps0, hostOps0_1]) (W0 m c) = _
  rw [List.flatten_cons, List.flatten_cons, List.flatten_nil, List.append_nil, StableHlo.after_append]

variable (dats : (p : Fin 1) → (c : Dev nD) → Dat τ (Elt F) Unit ℕ (UR sig nD τ) ℕ (cfgs p) c)

/-- The contents the region leaves: the result array at what the write-backs made it, every other buffer as at entry. -/
abbrev V1 (c : Dev nD) : Valuation τ sig (Elt F) :=
  Function.update (V0 m c) (Proc.devRef .tc main_v12) ((dats 0 c).arrAt 6 cfg0.N)
/-- The contents at the return: the last host stretch has run. -/
abbrev V2 (c : Dev nD) : Valuation τ sig (Elt F) := StableHlo.after hostOps1 (V1 m dats c)

/-- What rides beside the buffers up to the region: the generator register and the core owing nothing, no wait recorded; -/
abbrev Rin (c : Dev nD) : sProp 𝕄 := iprop((∃ r, prngReg c r) ∗ owes (c.tc : Thread nD τ) (0 : CellTallies nD τ sig Unit) ∅)
/-- and after it: the waits the pipeline recorded are not named. -/
abbrev Rout (c : Dev nD) : sProp 𝕄 := iprop((∃ r, prngReg c r) ∗ ∃ W, owes (c.tc : Thread nD τ) (0 : CellTallies nD τ sig Unit) W)

/-! ## The windows' arrays: six buffers behind seven windows -/

/-- The buffers behind the windows' arrays, one by one: the normalised rows (read by windows 0 and 1), the labels as a
    column and as a row, the squared norms as a column and as a row, the result. -/
theorem arrBufs_list (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v8) ↦{fullShare} W main_v8) ∗ (((c.tc : Thread nD τ).loc main_v9) ↦{fullShare} W main_v9)
          ∗ (((c.tc : Thread nD τ).loc main_v10) ↦{fullShare} W main_v10) ∗ (((c.tc : Thread nD τ).loc main_v7) ↦{fullShare} W main_v7)
          ∗ (((c.tc : Thread nD τ).loc main_v11) ↦{fullShare} W main_v11) ∗ (((c.tc : Thread nD τ).loc main_v12) ↦{fullShare} W main_v12)) := by
  unfold Pipeline.arrBufs
  rw [bigSep_eq_bigSepL_of_eq [main_v8, main_v9, main_v10, main_v7, main_v11, main_v12] (by decide) (by decide)]
  rfl

/-- Each window holds its array at the share `qshare` names: an input at the proof data's, the output whole. -/
theorem share_eq (hq : ∀ c w, (dats 0 c).q w = qshare w) (c : Dev nD) (w : Fin 7) : (dats 0 c).share w = qshare w := by
  have h : ∀ w : Fin 7, (if (cfg0.win w).isOut then fullShare else qshare w) = qshare w := fun
    | 0 => rfl | 1 => rfl | 2 => rfl | 3 => rfl | 4 => rfl | 5 => rfl | 6 => rfl
    | ⟨_ + 7, h⟩ => absurd h (Nat.not_lt.2 (Nat.le_add_left _ _))
  unfold Dat.share
  rw [hq]
  exact h w

/-- The pipeline's arrays at contents `Fa`, window by window: the two halves of the normalised rows, then the five
    arrays held whole. -/
theorem arrays_list (hq : ∀ c w, (dats 0 c).q w = qshare w) (c : Dev nD)
    (Fa : (w : Fin 7) → Buf (Elt F) ((cfg0.win w).arr.view.loc (c.tc : Thread nD τ))) :
    ((dats 0 c).arrays Fa : sProp 𝕄)
      = iprop((((c.tc : Thread nD τ).loc main_v8) ↦{fullShare.left} Fa 0) ∗ (((c.tc : Thread nD τ).loc main_v8) ↦{fullShare.right} Fa 1)
          ∗ (((c.tc : Thread nD τ).loc main_v9) ↦{fullShare} Fa 2) ∗ (((c.tc : Thread nD τ).loc main_v10) ↦{fullShare} Fa 3)
          ∗ (((c.tc : Thread nD τ).loc main_v7) ↦{fullShare} Fa 4) ∗ (((c.tc : Thread nD τ).loc main_v11) ↦{fullShare} Fa 5)
          ∗ (((c.tc : Thread nD τ).loc main_v12) ↦{fullShare} Fa 6)) := by
  have h : ((dats 0 c).arrays Fa : sProp 𝕄)
      = bigSep Finset.univ fun w : Fin 7 => (((c.tc : Thread nD τ).loc (Pipeline.arrRef spec0 w)) ↦{qshare w} Fa w : sProp 𝕄) := by
    unfold Dat.arrays
    exact bigSep_congr fun w _ => by rw [(arr_whole0 w).set_eq_univ, share_eq dats hq c w]
  rw [h, bigSep_W0]
  rfl

/-- ENTRY: the array of normalised rows, held whole, is dealt in halves to the two windows that read it; each other
    array goes whole to its one window. -/
theorem entry_split (hA : ∀ c w, (dats 0 c).A w = V m c (Pipeline.arrRef spec0 w)) (hq : ∀ c w, (dats 0 c).q w = qshare w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [show ((dats 0 c).arrAt · 0) = fun w => V m c (Pipeline.arrRef spec0 w) from funext fun w => hA c w,
    arrBufs_list, arrays_list dats hq c]
  iintro ⟨H8, H9, H10, H7, H11, H12⟩
  ihave H8' := (pointsTo_share (PosShare.mem_left_op_right fullShare)).1 $$ H8
  icases H8' with ⟨H8l, H8r⟩
  isplitl [H8l]; · iexact H8l
  isplitl [H8r]; · iexact H8r
  isplitl [H9]; · iexact H9
  isplitl [H10]; · iexact H10
  isplitl [H7]; · iexact H7
  isplitl [H11]; · iexact H11
  iexact H12

/-- An input window's array holds at the end what it held at entry. -/
theorem arrAt_input (hA : ∀ c w, (dats 0 c).A w = V m c (Pipeline.arrRef spec0 w)) (c : Dev nD) (w : Fin 7) (hw : (cfg0.win w).isOut = false) :
    (dats 0 c).arrAt w cfg0.N = V m c (Pipeline.arrRef spec0 w) :=
  ((dats 0 c).arrAt_in w hw _).trans (hA c w)

/-- EXIT: the two halves of the normalised rows are joined again; the result array comes back at its final contents. -/
theorem exit_join (hA : ∀ c w, (dats 0 c).A w = V m c (Pipeline.arrRef spec0 w)) (hq : ∀ c w, (dats 0 c).q w = qshare w) (c : Dev nD) :
    (dats 0 c).arrays ((dats 0 c).arrAt · cfg0.N)
      ⊢ (Pipeline.arrBufs (Ix := Unit) (Name := ℕ) (U := UR sig nD τ) (Lvl := ℕ) spec0 c (fun b => V1 m dats c (Proc.devRef .tc b)) : sProp 𝕄) := by
  rw [arrBufs_list, arrays_list dats hq c]
  rw [arrAt_input m dats hA c 0 rfl, arrAt_input m dats hA c 1 rfl, arrAt_input m dats hA c 2 rfl, arrAt_input m dats hA c 3 rfl,
    arrAt_input m dats hA c 4 rfl, arrAt_input m dats hA c 5 rfl]
  rw [show V1 m dats c (Proc.devRef .tc main_v8) = V m c main_v8 from Function.update_of_ne (StableHlo.devRef_ne_of_ne (by decide)) _ _,
    show V1 m dats c (Proc.devRef .tc main_v9) = V m c main_v9 from Function.update_of_ne (StableHlo.devRef_ne_of_ne (by decide)) _ _,
    show V1 m dats c (Proc.devRef .tc main_v10) = V m c main_v10 from Function.update_of_ne (StableHlo.devRef_ne_of_ne (by decide)) _ _,
    show V1 m dats c (Proc.devRef .tc main_v7) = V m c main_v7 from Function.update_of_ne (StableHlo.devRef_ne_of_ne (by decide)) _ _,
    show V1 m dats c (Proc.devRef .tc main_v11) = V m c main_v11 from Function.update_of_ne (StableHlo.devRef_ne_of_ne (by decide)) _ _,
    show V1 m dats c (Proc.devRef .tc main_v12) = (dats 0 c).arrAt 6 cfg0.N from Function.update_self ..]
  iintro ⟨H8l, H8r, H9, H10, H7, H11, H12⟩
  isplitl [H8l H8r]
  · iapply (pointsTo_share (PosShare.mem_left_op_right fullShare)).2
    isplitl [H8l] <;> iassumption
  isplitl [H9]; · iexact H9
  isplitl [H10]; · iexact H10
  isplitl [H7]; · iexact H7
  isplitl [H11]; · iexact H11
  iexact H12

/-- The buffers no window stages hold after the region what they held before it. -/
theorem rest_V1 (c : Dev nD) :
    (Pipeline.unscopedRest (Ix := Unit) (Name := ℕ) (U := UR sig nD τ) (Lvl := ℕ) spec0 c (V m c) : sProp 𝕄)
      = Pipeline.unscopedRest spec0 c (fun b => V1 m dats c (Proc.devRef .tc b)) := by
  unfold Pipeline.unscopedRest
  refine bigSep_congr fun b hb => ?_
  have hne : b ≠ main_v12 := fun e => (Finset.mem_sdiff.mp hb).2 (Finset.mem_image.mpr ⟨6, Finset.mem_univ _, e.symm⟩)
  have e : V1 m dats c (Proc.devRef .tc b) = V m c b := Function.update_of_ne (StableHlo.devRef_ne_of_ne hne) _ _
  beta_reduce
  rw [e]

/-- Every unscoped buffer held at a valuation is the windows' arrays' buffers and the rest at it. -/
theorem held_split (c : Dev nD) (W : Valuation τ sig (Elt F)) :
    (StableHlo.held (c.tc : Thread nD τ) (Pipeline.ucRefs τ sig) W : sProp 𝕄)
      = iprop(Pipeline.arrBufs (Ix := Unit) (Name := ℕ) (U := UR sig nD τ) (Lvl := ℕ) spec0 c (fun b => W (Proc.devRef .tc b))
          ∗ Pipeline.unscopedRest spec0 c (fun b => W (Proc.devRef .tc b))) := by
  rw [← Pipeline.unscopedBufs_held (Ix := Unit) (Name := ℕ) (U := UR sig nD τ) (Lvl := ℕ) c W]
  exact Pipeline.unscopedBufs_split₀ cfgs 0 winFacts₀0.arr_unscoped c _

/-! ## The final read -/

/-- The result buffer at the return: the host tail of the region's result array. -/
theorem V2_v15 (c : Dev nD) : V2 m dats c (Proc.devRef .tc main_v15) = tailFn ((dats 0 c).arrAt 6 cfg0.N) := by
  show StableHlo.after hostOps1 (V1 m dats c) (Proc.devRef .tc main_v15) = _
  after_results
  rw [show V1 m dats c (Proc.devRef .tc main_v12) = (dats 0 c).arrAt 6 cfg0.N from Function.update_self ..]
  rfl
/-- No host operation and no window writes an argument: each holds at the return what it held at launch. -/
theorem V2_arg0 (c : Dev nD) : V2 m dats c (Proc.devRef .tc main_arg0) = m ((c.tc : Thread nD τ).loc main_arg0) := by
  show StableHlo.after hostOps1 (V1 m dats c) (Proc.devRef .tc main_arg0) = _
  after_results
  rw [show V1 m dats c (Proc.devRef .tc main_arg0) = V0 m c (Proc.devRef .tc main_arg0) from Function.update_of_ne (StableHlo.devRef_ne_of_ne (by decide)) _ _]
  show StableHlo.after (List.flatten [hostOps0, hostOps0_1]) (W0 m c) (Proc.devRef .tc main_arg0) = _
  rw [List.flatten_cons, List.flatten_cons, List.flatten_nil, List.append_nil, StableHlo.after_append]
  after_results
theorem V2_arg1 (c : Dev nD) : V2 m dats c (Proc.devRef .tc main_arg1) = m ((c.tc : Thread nD τ).loc main_arg1) := by
  show StableHlo.after hostOps1 (V1 m dats c) (Proc.devRef .tc main_arg1) = _
  after_results
  rw [show V1 m dats c (Proc.devRef .tc main_arg1) = V0 m c (Proc.devRef .tc main_arg1) from Function.update_of_ne (StableHlo.devRef_ne_of_ne (by decide)) _ _]
  show StableHlo.after (List.flatten [hostOps0, hostOps0_1]) (W0 m c) (Proc.devRef .tc main_arg1) = _
  rw [List.flatten_cons, List.flatten_cons, List.flatten_nil, List.append_nil, StableHlo.after_append]
  after_results

/-- An unscoped TensorCore reference is among the buffers the host stretches run within. -/
theorem mem_ucRefs (b : Ref sig .tc) (hb : b.isScoped = false) : Proc.devRef .tc b ∈ Pipeline.ucRefs τ sig :=
  Finset.mem_filter.mpr ⟨StableHlo.devRef_mem_tcRefs b, by simpa using hb⟩

/-! ## The segments -/

local notation "ℍ" => Pipeline.HostSeg (Name := ℕ) (U := UR sig nD τ) (pcfgs (F := F)) defs₀ 𝒱₀ L lv

theorem ops_sub {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

theorem hostOps0_fresh : ∀ op ∈ (hostOps0 : List (HloOp τ sig (Elt F))), op.fresh = ∅ := by
  intro _ h; (repeat (cases h with | head => rfl | tail _ h => ?_)); exact nomatch h
theorem hostOps0_1_fresh : ∀ op ∈ (hostOps0_1 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The row norms, from the launch contents. -/
def segNorm : ℍ := Pipeline.HostSeg.ofOps _ _ _ _ _ (Pipeline.ucRefs τ sig) hostOps0 (ops_sub hostOps0_sub) hostOps0_fresh (W0 m) Rin
/-- The normalised rows, their squared norms and the reshapes. -/
def segPrep : ℍ := Pipeline.HostSeg.ofOps _ _ _ _ _ (Pipeline.ucRefs τ sig) hostOps0_1 (ops_sub hostOps0_1_sub) hostOps0_1_fresh (W1 m) Rin
/-- The total, its quotient by the row count, the product with one. -/
def segTail : ℍ := Pipeline.HostSeg.ofOps _ _ _ _ _ (Pipeline.ucRefs τ sig) hostOps1 (ops_sub hostOps1_sub) hostOps1_fresh (V1 m dats) Rout

/-- The core owing nothing, no wait recorded, is the pipeline's first point's account; -/
theorem owes_enter (howed : ∀ c t, (dats 0 c).owed t = 0) (c : Dev nD) :
    (owes (c.tc : Thread nD τ) (0 : CellTallies nD τ sig Unit) ∅ : sProp 𝕄) ⊢ (dats 0 c).owesAt () 0 := by
  unfold Pipeline.Dat.owesAt Pipeline.owesWithin
  rw [howed c 0]
  iintro HO
  iexists ∅
  isplitr
  · ipureintro; simp
  iexact HO

/-- and its last point's account is the core owing nothing, whatever waits were recorded. -/
theorem owes_leave (howed : ∀ c t, (dats 0 c).owed t = 0) (c : Dev nD) :
    ((dats 0 c).owesAt () (Fin.last cfg0.N) : sProp 𝕄) ⊢ iprop(∃ W, owes (c.tc : Thread nD τ) (0 : CellTallies nD τ sig Unit) W) := by
  unfold Pipeline.Dat.owesAt Pipeline.owesWithin
  rw [howed c]
  iintro ⟨%W, -, HO⟩
  iexists W
  iexact HO

-- a launch lemma stated over `cfgs p` meets the pinned configuration only when unification may unfold plain
-- definitions in a metavariable's type
set_option backward.isDefEq.respectTransparency.types false in
/-- THE REGION: entered from what the host stretches left — the array of normalised rows dealt in halves to the two
    windows that read it, the other arrays whole, every other unscoped buffer bypassing —, left with the result array at
    its final contents and every other buffer as it was. -/
def region0 (hA : ∀ c w, (dats 0 c).A w = V m c (Pipeline.arrRef spec0 w)) (hq : ∀ c w, (dats 0 c).q w = qshare w)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    Pipeline.RegionSeg (pcfgs (F := F)) adm dats () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c.tc : Thread nD τ) (Pipeline.ucRefs τ sig) (StableHlo.after hostOps0_1 (W1 m c)) ∗ Rin c)
  post c := iprop(StableHlo.held (c.tc : Thread nD τ) (Pipeline.ucRefs τ sig) (V1 m dats c) ∗ Rout c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [← V0_eq m c, held_split c (V0 m c)]
    iintro ⟨⟨⟨Ha, Hz⟩, Hp, HO⟩, -, -⟩
    ihave Ha' := (entry_split m dats hA hq c) $$ Ha
    ihave HO' := (owes_enter dats howed c) $$ HO
    imodintro
    isplitl [Ha']; · iexact Ha'
    isplitr
    · unfold Pipeline.prefHeld; rw [show (Finset.univ : Finset (Fin 0)) = ∅ from rfl, BI.bigSep_empty]; iempintro
    isplitl [HO']; · iexact HO'
    isplitl [Hp]; · iexact Hp
    iexact Hz
  hin c := by
    refine BIBase.Entails.trans ?_ (hin c)
    unfold Pipeline.ΦA
    iintro ⟨HX, -, Hr⟩
    isplitl [Hr]; · iexact Hr
    iexact HX
  hout c := by
    refine (hout c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, HZ⟩
    ihave Ha' := (exit_join m dats hA hq c) $$ Ha
    ihave HZ' := (Entails.of_eq (rest_V1 m dats c)) $$ HZ
    ihave Hh := (Entails.of_eq (held_split c (V1 m dats c)).symm) $$ [Ha' HZ']
    · isplitl [Ha'] <;> iassumption
    ihave HO' := (owes_leave dats howed c) $$ HO
    imodintro
    isplitl [Hh]; · iexact Hh
    isplitl [HY]; · iexact HY
    iexact HO'

/-- @main as the list of its four segments. -/
abbrev segs (hA : ∀ c w, (dats 0 c).A w = V m c (Pipeline.arrRef spec0 w)) (hq : ∀ c w, (dats 0 c).q w = qshare w)
    (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    List (Pipeline.Seg (pcfgs (F := F)) adm dats () defs₀ 𝒱₀ L lv) :=
  [.host (segNorm m), .host (segPrep m), .region (region0 m dats hA hq howed hbody hin hout), .host (segTail m dats)]

/-- The last thread state: every unscoped buffer at the contents at the return, the generator register. -/
abbrev Tₙ (c : Dev nD) : sProp 𝕄 :=
  iprop(StableHlo.held (c.tc : Thread nD τ) (Pipeline.ucRefs τ sig) (V2 m dats c) ∗ ∃ r, prngReg c r)

-- the launch theorem's implicit arguments are found by unifying its conclusion with this one, which takes unfolding
-- plain definitions in a metavariable's type
set_option backward.isDefEq.respectTransparency.types false in
/-- THE RUN, from any proof data of the one pipeline whose arrays are the region-entry contents, whose shares are
    `qshare`, that owes nothing, with its body obligation and the invariant's two ends: from any memory with zero
    counters every weakly fair execution of @main on the TensorCores terminates, and every final state has the result
    buffer at the host tail of the region's final result array and both arguments as launched. -/
theorem run_of (dats : (p : Fin 1) → (c : Dev nD) → Dat τ (Elt F) Unit ℕ (UR sig nD τ) ℕ (cfgs p) c)
    (hA : ∀ c w, (dats 0 c).A w = V m c (Pipeline.arrRef spec0 w)) (hq : ∀ c w, (dats 0 c).q w = qshare w) (howed : ∀ c t, (dats 0 c).owed t = 0)
    (hbody : ∀ c, BodyObligation (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
        r.2.mem ((c.tc : Thread nD τ).loc main_v15) = tailFn ((dats 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm dats () cellOf_inj EP defs₀ 𝒱₀ L lv m ρ main (segs m dats hA hq howed hbody hin hout)
    (fun c Q => by
      have e : main (F := F) c = Pipeline.Seg.run (segs m dats hA hq howed hbody hin hout) := by
        rw [main_chain c, Pipeline.Seg.run_eq_chain]; rfl
      rw [e])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ Rin c)) (Tₙ := Tₙ m dats)
    (hch := ⟨fun _ => .rfl, fun _ => .rfl, fun _ => .rfl, fun _ => .rfl, fun c => by
      show iprop(StableHlo.held (c.tc : Thread nD τ) (Pipeline.ucRefs τ sig) (V2 m dats c) ∗ Rout c)
        ⊢ iprop(Tₙ m dats c ∗ ∃ W, owes (c.tc : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c.tc : Thread nD τ).loc b)) = StableHlo.held (c.tc : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => s.mem ((c.tc : Thread nD τ).loc main_v15) = tailFn ((dats 0 c).arrAt 6 cfg0.N)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      iintro ⟨⟨Hh, -⟩, HSI⟩
      unfold StableHlo.held
      ihave Hr := (pointsTo_read_all (Pipeline.ucRefs τ sig) (fun b => (((c.tc : Thread nD τ)).1, b)) (V2 m dats c) s') $$ [Hh HSI]
      · isplitl [Hh] <;> iassumption
      icases Hr with ⟨%hr, HSI⟩
      imodintro
      isplitr
      · ipureintro
        exact ⟨(hr _ (mem_ucRefs main_v15 rfl)).trans (V2_v15 m dats c), (hr _ (mem_ucRefs main_arg0 rfl)).trans (V2_arg0 m dats c),
          (hr _ (mem_ucRefs main_arg1 rfl)).trans (V2_arg1 m dats c)⟩
      iexact HSI)
    (hQ := fun _ h => h)

/-- info: 'Cert.KernelIdeal.Hand.run_of' depends on axioms: [propext, Classical.choice, Quot.sound] -/
#guard_msgs in #print axioms run_of

end Cert.KernelIdeal.Hand

end
-- ==== Proof.KI.Pieces.lean ====
/-
  What each control case of the idealized kernel's body leaves in the three scratch buffers and in the
  losses' window, as the body's own arithmetic of the blocks it loads.

  The body keeps three per-row statistics along a row tile: the sum of the squared distances to the same-label
  columns, the minimum over the other-label columns and the maximum over all columns.  Each column tile
  updates them from the tile's 1024 × 512 matrix of squared distances (the payload `k0_pay8` of the two row
  blocks and their squared norms), the label-equality mask (`k0_pay9`) and the diagonal mask (`k0_pay10`):
  `k0_pay1` adds the tile's same-label off-diagonal row sums, `k0_pay2` takes the minimum with the tile's
  other-label row minima, `k0_pay3` the maximum with the tile's row maxima.

  At a row tile's first column tile the statistics are first reset (to `k0_pay5`, `k0_pay6`, `k0_pay7`: zero, a
  large finite number, zero) and the update reads the reset value back; at every later column tile the update
  reads what the point before left; at the last column tile the losses' window moreover receives `k0_pay4` of
  the three updated statistics.  Every store and load covers its whole buffer, so what a buffer holds after
  the body is the payload of its last store, and a load after a store reads that payload.
-/
import proofs.«400854_j84688165142763_3_alg».proof.Proof.KI.Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Every store and load of the body starts at the origin of its buffer. -/
theorem hz : (![0, 0] : Fin 2 → Nat) = fun _ => 0 := funext fun a => by fin_cases a <;> rfl

/-- At a row tile's first column tile the running sum of the same-label distances is reset and then fed the tile: the tile's update of the reset value. -/
theorem sout0_A_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) :
    sout0_A_0 c i arg2 harg2 arg3 harg3 arg4 harg4 arg5 harg5 arg6 harg6 arg7 harg7 arg8 harg8 arg9 harg9 arg10 harg10 arg11 harg11 hc0 hc1 x0 x1 x2 x3 x4 x5
      = k0_pay1 (k0_pay8 x0 x1 x4 x5) (k0_pay9 x2 x3) (k0_pay10 i) (constantI S1024x512 1 1#1) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's first column tile the running minimum of the other-label distances is reset and then fed the tile: the tile's update of the reset value. -/
theorem sout0_A_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) :
    sout0_A_1 c i arg2 harg2 arg3 harg3 arg4 harg4 arg5 harg5 arg6 harg6 arg7 harg7 arg8 harg8 arg9 harg9 arg10 harg10 arg11 harg11 hc0 hc1 x0 x1 x2 x3 x4 x5
      = k0_pay2 (k0_pay8 x0 x1 x4 x5) (k0_pay9 x2 x3) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's first column tile the running maximum distance is reset and then fed the tile: the tile's update of the reset value. -/
theorem sout0_A_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) :
    sout0_A_2 c i arg2 harg2 arg3 harg3 arg4 harg4 arg5 harg5 arg6 harg6 arg7 harg7 arg8 harg8 arg9 harg9 arg10 harg10 arg11 harg11 hc0 hc1 x0 x1 x2 x3 x4 x5
      = k0_pay3 (k0_pay8 x0 x1 x4 x5) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At an inner column tile the running sum of the same-label distances is fed the tile on top of what the point before left. -/
theorem sout0_B_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay1 (k0_pay8 x0 x1 x4 x5) (k0_pay9 x2 x3) (k0_pay10 i) (constantI S1024x512 1 1#1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At an inner column tile the running minimum of the other-label distances is fed the tile on top of what the point before left. -/
theorem sout0_B_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay2 (k0_pay8 x0 x1 x4 x5) (k0_pay9 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At an inner column tile the running maximum distance is fed the tile on top of what the point before left. -/
theorem sout0_B_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay3 (k0_pay8 x0 x1 x4 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's last column tile the running sum of the same-label distances is fed the tile on top of what the point before left. -/
theorem sout0_C_0_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay1 (k0_pay8 x0 x1 x4 x5) (k0_pay9 x2 x3) (k0_pay10 i) (constantI S1024x512 1 1#1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's last column tile the running minimum of the other-label distances is fed the tile on top of what the point before left. -/
theorem sout0_C_1_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay2 (k0_pay8 x0 x1 x4 x5) (k0_pay9 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's last column tile the running maximum distance is fed the tile on top of what the point before left. -/
theorem sout0_C_2_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay3 (k0_pay8 x0 x1 x4 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz]

/-- At a row tile's last column tile the losses' window receives the final formula of the three statistics just updated:
    the new minimum, the new maximum and the new sum. -/
theorem out0_C_6_eq (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x1024 .bf16) (x1 : Vec F S512x1024 .bf16) (x2 : Vec F S1024x1 .i32) (x3 : Vec F S1x512 .i32) (x4 : Vec F S1024x1 .f32) (x5 : Vec F S1x512 .f32) (xs0 : Vec F S1024x1 .f32) (xs1 : Vec F S1024x1 .f32) (xs2 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2
      = k0_pay4 (k0_pay2 (k0_pay8 x0 x1 x4 x5) (k0_pay9 x2 x3) xs1) (k0_pay3 (k0_pay8 x0 x1 x4 x5) xs2) (k0_pay1 (k0_pay8 x0 x1 x4 x5) (k0_pay9 x2 x3) (k0_pay10 i) (constantI S1024x512 1 1#1) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1024) hz, View.ld_unit_zero (S := S512x1024) hz, View.ld_unit_zero (S := S1024x1) hz, View.ld_unit_zero (S := S1x512) hz, View.readCov_unit_zero (S := S1024x1) _ hz]

end Cert.KernelIdeal.Hand

end
-- ==== Proof.Spec.lean ====
/-
  The mathematics both programs compute, stated once over plain index types.

  Rows are L2-normalised (`xnorm`), the squared distance of two normalised rows is
  `‖a‖² + ‖b‖² − 2⟨a, b⟩` clipped at zero (`l2`), and each row's loss is
  `max (pos + 1/2 − hardest, 0)`, where `pos` sums the distances to the other rows of the same
  label and `hardest` is the smallest distance to a row of another label.

  The reference takes `hardest` in one pass over a whole row: every same-label entry is pushed up by the
  row's largest distance before the row minimum is taken (`lossRef`).
  The kernel walks a row in eight column tiles of 512, carrying a running sum, a running minimum seeded
  with a large finite number and a running maximum seeded with zero, and clips the minimum by the maximum at the
  end (`lossK`).
  The two agree because the entry of a row against itself is exactly zero and same-label, and because no
  distance between normalised rows comes near the large seed.
-/
import Idealize.ShloMosaic.PureOps.Ideal

noncomputable section

namespace Cert.Spec

open Idealize.ShloMosaic
open scoped BigOperators

/-- The large finite seed of the kernel's running minimum (the f32 nearest 1e30). -/
abbrev BIG : EReal := Ideal.ofBits .f32 0x7149F2CA#32
/-- The margin, one half. -/
abbrev HALF : EReal := Ideal.ofBits .f32 0x3F000000#32
/-- Two. -/
abbrev TWO : EReal := Ideal.ofBits .f32 0x40000000#32
/-- The lower clamp of a row's norm (the f32 nearest 1e-12). -/
abbrev EPS : EReal := Ideal.ofBits .f32 0x2B8CBCCC#32

/-- A row divided by its Euclidean norm, the norm clamped below by `EPS`. -/
def xnorm (x : Fin 4096 → Fin 1024 → EReal) (r : Fin 4096) (k : Fin 1024) : EReal :=
  Ideal.div (x r k) (max (Ideal.sqrt (0 + ∑ k' : Fin 1024, x r k' * x r k')) EPS)

section Rows

variable (xn : Fin 4096 → Fin 1024 → EReal) (lab : Fin 4096 → BitVec 32)

/-- A row's squared norm. -/
def sq (r : Fin 4096) : EReal := ∑ k : Fin 1024, xn r k * xn r k
/-- The inner product of two rows. -/
def dot (r c : Fin 4096) : EReal := ∑ k : Fin 1024, xn r k * xn c k
/-- The squared distance of two rows, clipped at zero. -/
def l2 (r c : Fin 4096) : EReal := max (sq xn r + sq xn c - TWO * dot xn r c) 0

/-! ### One pass over the whole row -/

/-- The distances to the other rows of the same label, summed. -/
def posRef (r : Fin 4096) : EReal :=
  ∑ c : Fin 4096, (if lab r = lab c ∧ r ≠ c then (1 : EReal) else 0) * l2 xn r c
/-- The row's largest distance. -/
def maxRef (r : Fin 4096) : EReal := (Finset.univ : Finset (Fin 4096)).fold max ⊥ (fun c => l2 xn r c)
/-- The row minimum after every same-label entry is pushed up by the row's largest distance. -/
def negRef (r : Fin 4096) : EReal :=
  (Finset.univ : Finset (Fin 4096)).fold min ⊤
    (fun c => l2 xn r c + maxRef xn r * (1 - (if lab r = lab c then (0 : EReal) else 1)))
/-- The row's loss, taken in one pass. -/
def lossRef (r : Fin 4096) : EReal := max (posRef xn lab r + HALF - negRef xn lab r) 0

/-! ### Eight column tiles of 512 -/

/-- Column `cc` of tile `j`. -/
def col (j : Fin 8) (cc : Fin 512) : Fin 4096 := ⟨512 * j.val + cc.val, by omega⟩
/-- Tile `n mod 8`. -/
def tile (n : ℕ) : Fin 8 := ⟨n % 8, Nat.mod_lt _ (by norm_num)⟩

/-- One tile's share of the same-label sum. -/
def posTile (r : Fin 4096) (j : Fin 8) : EReal :=
  ∑ cc : Fin 512, if lab r = lab (col j cc) ∧ r ≠ col j cc then l2 xn r (col j cc) else 0
/-- One tile's smallest other-label distance, a same-label entry standing at the large seed. -/
def negTile (r : Fin 4096) (j : Fin 8) : EReal :=
  (Finset.univ : Finset (Fin 512)).fold min ⊤
    (fun cc => if lab r = lab (col j cc) then BIG else l2 xn r (col j cc))
/-- One tile's largest distance. -/
def maxTile (r : Fin 4096) (j : Fin 8) : EReal :=
  (Finset.univ : Finset (Fin 512)).fold max ⊥ (fun cc => l2 xn r (col j cc))

/-- The running same-label sum after the first `n` tiles. -/
def posAcc (r : Fin 4096) : ℕ → EReal
  | 0 => 0
  | n + 1 => posAcc r n + posTile xn lab r (tile n)
/-- The running other-label minimum after the first `n` tiles, seeded with the large number. -/
def negAcc (r : Fin 4096) : ℕ → EReal
  | 0 => BIG
  | n + 1 => min (negAcc r n) (negTile xn lab r (tile n))
/-- The running maximum after the first `n` tiles, seeded with zero. -/
def maxAcc (r : Fin 4096) : ℕ → EReal
  | 0 => 0
  | n + 1 => max (maxAcc r n) (maxTile xn r (tile n))

/-- The row's loss, taken tile by tile: the running minimum clipped by the running maximum. -/
def lossK (r : Fin 4096) : EReal :=
  max (posAcc xn lab r 8 + HALF - min (negAcc xn lab r 8) (maxAcc xn r 8)) 0

end Rows

end Cert.Spec

end
-- ==== Proof.SpecRows.lean ====
/-
  Row `p` of row tile `i`: the grid's first coordinate cuts the 4096 rows into four tiles of 1024.
-/
import proofs.«400854_j84688165142763_3_alg».proof.Proof.Spec

namespace Cert.Spec

/-- Row `p` of row tile `i`. -/
def row (i : Fin 4) (p : Fin 1024) : Fin 4096 := ⟨1024 * i.val + p.val, by omega⟩

end Cert.Spec
-- ==== Proof.KI.TileOps.lean ====
/-
  The kernel body's non-pointwise operations on one 1024 × 512 tile, each read at an index given by its
  coordinates: a column [1024,1] and a row [1,512] spread over the tile, a lane vector [1024] stood up as a
  column, the product of the row tile with the transposed column tile as a sum over the 1024 features, the three
  lane reductions as a sum, a minimum and a maximum over the 512 columns, the two infinite seeds, the one-bit
  masks, and the tile's identity mask: global row `1024·i + p` against global column `512·j + q`.
-/
import proofs.«400854_j84688165142763_3_alg».proof.Proof.Gen.KernelIdeal.Skeleton
import proofs.«400854_j84688165142763_3_alg».proof.Proof.SpecRows
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

variable {α : Type}

/-! ## Layout -/

/-- A lane vector stood up as a column reads its lane. -/
theorem castCol_apply (v : S1024.Idx → α) (h : S1024.ShapeCasts S1024x1) (p : Fin 1024) :
    shapeCast S1024x1 v h (ix2 p (0 : Fin 1)) = v (ix1 p) :=
  shapeCast_apply v h _ _ (by
    rw [Shape.rowMajor_val_two, Shape.rowMajor_val_one]
    show p.val = p.val * 1 + 0
    omega)

/-- A column spread over the tile reads its row's entry. -/
theorem spreadCol_apply (v : S1024x1.Idx → α) (h : S1024x1.Broadcasts S1024x512) (p : Fin 1024) (q : Fin 512) :
    broadcastTo S1024x512 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row spread over the tile reads its column's entry. -/
theorem spreadRow_apply (v : S1x512.Idx → α) (h : S1x512.Broadcasts S1024x512) (p : Fin 1024) (q : Fin 512) :
    broadcastTo S1024x512 v h (ix2 p q) = v (ix2 (0 : Fin 1) q) :=
  broadcastTo_1b_ab_apply v h p q

/-- The column tile transposed reads, at feature `k` and column `q`, the column tile at `(q, k)`. -/
theorem flip_apply (v : S512x1024.Idx → α) (h : S512x1024.Transposes [1, 0] S1024x512) (k : Fin 1024) (q : Fin 512) :
    transpose S1024x512 [1, 0] v h (ix2 k q) = v (ix2 q k) :=
  transpose_ix2_apply v h k q

/-! ## The product of the two tiles -/

theorem dotL0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem dotL1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem dotR0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem dotR1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The product into a zero accumulator reads, at row `p` and column `q`, the sum over the features of the
    left factor's row `p` times the right factor's column `q`. -/
theorem prod_apply (l : FVec Ideal S1024x1024 .bf16) (r : FVec Ideal S1024x512 .bf16) (p : Fin 1024) (q : Fin 512) :
    matmul dot_S1024x1024_S1024x512_S1024x512_1_0_0_1_n_n none l r (constant (F := Ideal) S1024x512 .f32 0x00000000#32)
        (ix2 p q)
      = ∑ k : Fin 1024, l (ix2 p k) * r (ix2 k q) := by
  simp only [matmul]
  rw [Ideal.matmul_constant_zero_apply,
    ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q)
      ((contrEquiv1 dot_S1024x1024_S1024x512_S1024x512_1_0_0_1_n_n 1024 rfl rfl).symm k) = ix2 p k :=
    funext fun a => Fin.ext (by
      match a with
      | ⟨0, _⟩ => exact dotL0 _ _
      | ⟨1, _⟩ => exact (dotL1 _ _).trans hk)
  have er : dot_S1024x1024_S1024x512_S1024x512_1_0_0_1_n_n.rhsIdx (ix2 p q)
      ((contrEquiv1 dot_S1024x1024_S1024x512_S1024x512_1_0_0_1_n_n 1024 rfl rfl).symm k) = ix2 k q :=
    funext fun a => Fin.ext (by
      match a with
      | ⟨0, _⟩ => exact (dotR0 _ _).trans hk
      | ⟨1, _⟩ => exact dotR1 _ _)
  rw [el, er]

/-! ## The lane reductions -/

/-- Row `p` with column `q` put back is `(p, q)`. -/
theorem lane_lift (h : S1024x512.Reduces [1] S1024) (p : Fin 1024) (q : Fin 512) :
    h.lift (ix1 p) q = ix2 p q :=
  funext fun a => Fin.ext (by
    match a with
    | ⟨0, _⟩ => rfl
    | ⟨1, _⟩ => rfl)

/-- The lane sum of row `p` is the sum over the tile's 512 columns. -/
theorem laneSum_apply (src : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 src 0x00000000#32 h hφ hacc (ix1 p) = ∑ q : Fin 512, src (ix2 p q) := by
  refine (Ideal.multiReduction_add_single src 0x00000000#32 h hφ hacc (ix1 p)).trans ?_
  exact Finset.sum_congr rfl fun q _ => congrArg src (lane_lift h p q)

/-- The pattern of `+∞` denotes the top element. -/
theorem ofBits_posInf : Ideal.ofBits .f32 0x7F800000#32 = ⊤ := by
  simp [Ideal.ofBits, Ideal.ieee]

/-- The pattern of `-∞` denotes the bottom element. -/
theorem ofBits_negInf : Ideal.ofBits .f32 0xFF800000#32 = ⊥ := by
  simp [Ideal.ofBits, Ideal.ieee]

/-- The lane maximum of row `p` is the maximum over the tile's 512 columns, from the bottom element. -/
theorem laneMax_apply (src : FVec Ideal S1024x512 .f32) (h : S1024x512.Reduces [1] S1024) (hφ : FKind.Formats .f32)
    (hacc : (0xFF800000#32 : BitVec 32) = FKind.maximumf.neutral .f32 hφ) (p : Fin 1024) :
    multiReduction (F := Ideal) .maximumf [1] S1024 src 0xFF800000#32 h hφ hacc (ix1 p)
      = (Finset.univ : Finset (Fin 512)).fold max ⊥ (fun q => src (ix2 p q)) := by
  refine (Ideal.multiReduction_maximumf_single src 0xFF800000#32 h hφ hacc (ix1 p)).trans ?_
  have hf : (src ∘ h.lift (ix1 p)) = fun q : Fin 512 => src (ix2 p q) :=
    funext fun q => congrArg src (lane_lift h p q)
  rw [hf]
  exact congrArg (fun b => (Finset.univ : Finset (Fin 512)).fold max b (fun q => src (ix2 p q))) ofBits_negInf

/-- The lane minimum of row `p` is the minimum over the tile's 512 columns, from the top element. -/
theorem laneMin_apply (src : FVec Ideal S1024x512 .f32) (h : S1024x512.Reduces [1] S1024) (hφ : FKind.Formats .f32)
    (hacc : (0x7F800000#32 : BitVec 32) = FKind.minimumf.neutral .f32 hφ) (p : Fin 1024) :
    multiReduction (F := Ideal) .minimumf [1] S1024 src 0x7F800000#32 h hφ hacc (ix1 p)
      = (Finset.univ : Finset (Fin 512)).fold min ⊤ (fun q => src (ix2 p q)) := by
  rw [multiReduction_minimumf_eq_fold]
  refine (h.fold_filter_drop_single _ _ src (ix1 p)).trans ?_
  have hf : (src ∘ h.lift (ix1 p)) = fun q : Fin 512 => src (ix2 p q) :=
    funext fun q => congrArg src (lane_lift h p q)
  rw [hf]
  exact congrArg (fun b => (Finset.univ : Finset (Fin 512)).fold min b (fun q => src (ix2 p q))) ofBits_posInf

/-! ## One-bit masks -/

/-- A select on a bit that says `P` is the `if` on `P`. -/
theorem select_of_iff {c : BitVec 1} {P : Prop} [Decidable P] (h : c = 1#1 ↔ P) (x y : α) :
    Scalar.select c x y = if P then x else y := by
  by_cases hP : P
  · rw [h.mpr hP, select_one, if_pos hP]
  · rw [eq_zero_of_ne_one (fun hc => hP (h.mp hc)), select_zero, if_neg hP]

/-- Flipping a bit negates what it says. -/
theorem xori_one_iff (a : BitVec 1) : IntOp.xori a 1#1 = 1#1 ↔ ¬a = 1#1 := by
  revert a; decide

/-- The conjunction of a bit with a flipped bit. -/
theorem andi_xori_iff (a b : BitVec 1) : IntOp.andi a (IntOp.xori b 1#1) = 1#1 ↔ a = 1#1 ∧ ¬b = 1#1 := by
  revert a b; decide

/-- Two words compare equal exactly when they are equal. -/
theorem cmpi_eq_one_iff (a b : BitVec 32) : IntOp.cmpi .eq a b = 1#1 ↔ a = b :=
  StableHlo.Predicate.cmpi_eq_iff

/-! ## The tile's identity mask -/

/-- Global row `1024·a + b` and global column `512·c + d`, taken as 32-bit words, compare equal exactly when they
    are equal as numbers: both stay below 4096, so nothing wraps. -/
theorem word_eq_iff (a b c d : ℕ) (ha : a < 4) (hb : b < 1024) (hc : c < 8) (hd : d < 512) :
    IntOp.cmpi .eq (IntOp.addi (Scalar.muli (BitVec.ofNat 32 a) 1024#32) (BitVec.ofNat 32 b))
        (IntOp.addi (Scalar.muli (BitVec.ofNat 32 c) 512#32) (BitVec.ofNat 32 d)) = 1#1
      ↔ 1024 * a + b = 512 * c + d := by
  rw [cmpi_eq_one_iff, ← BitVec.toNat_inj]
  simp only [IntOp.addi, Scalar.muli, IntOp.muli, BitVec.toNat_add, BitVec.toNat_mul, BitVec.toNat_ofNat]
  omega

/-- The identity mask at row `p` and column `q` of the tile says that the two are the same global index. -/
theorem eye_iff (i : grid0.Coords) (i0 : Fin 4) (j : Fin 8) (hi0 : (i 0).val = i0.val) (hi1 : (i 1).val = j.val)
    (p : Fin 1024) (q : Fin 512) :
    k0_pay10 i (ix2 p q) = 1#1 ↔ Spec.row i0 p = Spec.col j q := by
  have e0 : iota .tc S1024x512 32 [0] iota_S1024x512_d0_w32 (ix2 p q) = BitVec.ofNat 32 p.val :=
    iota_single_apply .tc S1024x512 32 0 iota_S1024x512_d0_w32 (ix2 p q)
  have e1 : iota .tc S1024x512 32 [1] iota_S1024x512_d1_w32 (ix2 p q) = BitVec.ofNat 32 q.val :=
    iota_single_apply .tc S1024x512 32 1 iota_S1024x512_d1_w32 (ix2 p q)
  show IntOp.cmpi .eq
      (IntOp.addi (Scalar.muli (BitVec.ofNat 32 (i 0).val) 1024#32) (iota .tc S1024x512 32 [0] iota_S1024x512_d0_w32 (ix2 p q)))
      (IntOp.addi (Scalar.muli (BitVec.ofNat 32 (i 1).val) 512#32) (iota .tc S1024x512 32 [1] iota_S1024x512_d1_w32 (ix2 p q)))
      = 1#1 ↔ _
  rw [e0, e1, hi0, hi1, word_eq_iff i0.val p.val j.val q.val i0.isLt p.isLt j.isLt q.isLt]
  exact ⟨fun h => Fin.ext h, fun h => congrArg Fin.val h⟩

end Cert.KernelIdeal.Hand

end
-- ==== Proof.KI.Tile.lean ====
/-
  The kernel body's stored values, read at row `p` of the [1024,1] result, as one step of the running sum, the
  running minimum and the running maximum over one column tile of 512.

  On row tile `i0` and column tile `j` the body forms, for every row `p` of the row tile and column `q` of the
  column tile, the clipped squared distance `max (‖a‖² + ‖b‖² − 2⟨a, b⟩, 0)` of the two normalised rows, the
  same-label bit and the same-index bit. The running sum gains the distances at same-label, other-index columns;
  the running minimum is cut by the distances at other-label columns, a same-label column standing at the large
  seed; the running maximum is raised by all the distances. The last tile's result is
  `max (sum + 1/2 − min (minimum, maximum), 0)`; the first tile starts from `0`, the large seed and `0`.
-/
import proofs.«400854_j84688165142763_3_alg».proof.Proof.Gen.KernelIdeal.Skeleton
import proofs.«400854_j84688165142763_3_alg».proof.Proof.SpecRows
import proofs.«400854_j84688165142763_3_alg».proof.Proof.KI.TileOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

/-- What the six input blocks of row tile `i0` and column tile `j` hold: the normalised rows of the row tile and
    of the column tile, their labels, and their squared norms. -/
structure TileData (xn : Fin 4096 → Fin 1024 → EReal) (lab : Fin 4096 → BitVec 32) (i0 : Fin 4) (j : Fin 8)
    (x0 : Vec Ideal S1024x1024 .bf16) (x1 : Vec Ideal S512x1024 .bf16) (x2 : Vec Ideal S1024x1 .i32)
    (x3 : Vec Ideal S1x512 .i32) (x4 : Vec Ideal S1024x1 .f32) (x5 : Vec Ideal S1x512 .f32) : Prop where
  h0 : ∀ (p : Fin 1024) (k : Fin 1024), x0 (ix2 p k) = xn (Spec.row i0 p) k
  h1 : ∀ (q : Fin 512) (k : Fin 1024), x1 (ix2 q k) = xn (Spec.col j q) k
  h2 : ∀ p : Fin 1024, x2 (ix2 p 0) = lab (Spec.row i0 p)
  h3 : ∀ q : Fin 512, x3 (ix2 0 q) = lab (Spec.col j q)
  h4 : ∀ p : Fin 1024, x4 (ix2 p 0) = Spec.sq xn (Spec.row i0 p)
  h5 : ∀ q : Fin 512, x5 (ix2 0 q) = Spec.sq xn (Spec.col j q)

/-! ## The tile's three arrays at an index -/

/-- The distance array at `(p, q)`, from the blocks: the two squared norms, less twice the inner product over the
    features, clipped at zero. -/
theorem dist_read (x0 : Vec Ideal S1024x1024 .bf16) (x1 : Vec Ideal S512x1024 .bf16) (x4 : Vec Ideal S1024x1 .f32)
    (x5 : Vec Ideal S1x512 .f32) (p : Fin 1024) (q : Fin 512) :
    k0_pay8 x0 x1 x4 x5 (ix2 p q)
      = max (x4 (ix2 p (0 : Fin 1)) + x5 (ix2 (0 : Fin 1) q) - Spec.TWO * ∑ k : Fin 1024, x0 (ix2 p k) * x1 (ix2 q k)) 0 := by
  unfold k0_pay8
  dsimp only
  rw [shapeCast_self, shapeCast_self, shapeCast_self, shapeCast_self]
  rw [maximumf_apply, subf_apply, addf_apply, mulf_apply, spreadCol_apply, spreadRow_apply, broadcast_apply,
    broadcast_apply]
  refine congrArg₂ max (congrArg₂ (· - ·) rfl (congrArg₂ (· * ·) rfl ?_)) Ideal.ofBits_zero_f32
  refine (prod_apply _ _ p q).trans (Finset.sum_congr rfl fun k _ => ?_)
  rw [flip_apply]

section Steps

variable {xn : Fin 4096 → Fin 1024 → EReal} {lab : Fin 4096 → BitVec 32} {i0 : Fin 4} {j : Fin 8}
  {x0 : Vec Ideal S1024x1024 .bf16} {x1 : Vec Ideal S512x1024 .bf16} {x2 : Vec Ideal S1024x1 .i32}
  {x3 : Vec Ideal S1x512 .i32} {x4 : Vec Ideal S1024x1 .f32} {x5 : Vec Ideal S1x512 .f32}

/-- The distance array at `(p, q)` is the clipped squared distance of global row `1024·i0 + p` and global column
    `512·j + q`. -/
theorem dist_apply (D : TileData xn lab i0 j x0 x1 x2 x3 x4 x5) (p : Fin 1024) (q : Fin 512) :
    k0_pay8 x0 x1 x4 x5 (ix2 p q) = Spec.l2 xn (Spec.row i0 p) (Spec.col j q) := by
  rw [dist_read, D.h4 p, D.h5 q]
  unfold Spec.l2 Spec.dot
  refine congrArg₂ max (congrArg₂ (· - ·) rfl (congrArg₂ (· * ·) rfl (Finset.sum_congr rfl fun k _ => ?_))) rfl
  rw [D.h0 p k, D.h1 q k]

/-- The same-label bit at `(p, q)`. -/
theorem same_iff (D : TileData xn lab i0 j x0 x1 x2 x3 x4 x5) (p : Fin 1024) (q : Fin 512) :
    k0_pay9 x2 x3 (ix2 p q) = 1#1 ↔ lab (Spec.row i0 p) = lab (Spec.col j q) := by
  unfold k0_pay9
  rw [shapeCast_self, shapeCast_self]
  show IntOp.cmpi .eq (broadcastTo S1024x512 x2 broadcasts_S1024x1_S1024x512 (ix2 p q))
      (broadcastTo S1024x512 x3 broadcasts_S1x512_S1024x512 (ix2 p q)) = 1#1 ↔ _
  rw [spreadCol_apply, spreadRow_apply, D.h2 p, D.h3 q, cmpi_eq_one_iff]

/-- THE RUNNING SUM's step: the tile adds the distances to its same-label columns other than the row itself. -/
theorem pos_step (i : grid0.Coords) (hi0 : (i 0).val = i0.val) (hi1 : (i 1).val = j.val)
    (D : TileData xn lab i0 j x0 x1 x2 x3 x4 x5) (p : Fin 1024) (v : Vec Ideal S1024x1 .f32) :
    k0_pay1 (k0_pay8 x0 x1 x4 x5) (k0_pay9 x2 x3) (k0_pay10 i) (constantI S1024x512 1 1#1) v (ix2 p 0)
      = v (ix2 p 0) + Spec.posTile xn lab (Spec.row i0 p) j := by
  unfold k0_pay1
  dsimp only
  rw [shapeCast_self, addf_apply, castCol_apply]
  refine congrArg (v (ix2 p 0) + ·) ((laneSum_apply _ _ _ _ p).trans (Finset.sum_congr rfl fun q _ => ?_))
  show Scalar.select (IntOp.andi (k0_pay9 x2 x3 (ix2 p q)) (IntOp.xori (k0_pay10 i (ix2 p q)) 1#1))
      (k0_pay8 x0 x1 x4 x5 (ix2 p q)) (Ideal.ofBits .f32 0x00000000#32) = _
  rw [select_of_iff ((andi_xori_iff _ _).trans
      (and_congr (same_iff D p q) (not_congr (eye_iff i i0 j hi0 hi1 p q)))), dist_apply D p q]
  exact if_congr Iff.rfl rfl Ideal.ofBits_zero_f32

/-- THE RUNNING MINIMUM's step: the tile cuts it by the distances to its other-label columns, a same-label column
    standing at the large seed. -/
theorem neg_step (D : TileData xn lab i0 j x0 x1 x2 x3 x4 x5) (p : Fin 1024) (v : Vec Ideal S1024x1 .f32) :
    k0_pay2 (k0_pay8 x0 x1 x4 x5) (k0_pay9 x2 x3) v (ix2 p 0)
      = min (v (ix2 p 0)) (Spec.negTile xn lab (Spec.row i0 p) j) := by
  unfold k0_pay2
  dsimp only
  rw [shapeCast_self, minimumf_apply, castCol_apply]
  refine congrArg (min (v (ix2 p 0))) ((laneMin_apply _ _ _ _ p).trans ?_)
  unfold Spec.negTile
  refine congrArg (Finset.fold min ⊤ · Finset.univ) (funext fun q => ?_)
  show Scalar.select (IntOp.xori (k0_pay9 x2 x3 (ix2 p q)) 1#1) (k0_pay8 x0 x1 x4 x5 (ix2 p q))
      (Ideal.ofBits .f32 0x7149F2CA#32) = _
  rw [select_of_iff ((xori_one_iff _).trans (not_congr (same_iff D p q))), dist_apply D p q, ite_not]

/-- THE RUNNING MAXIMUM's step: the tile raises it by all its distances. -/
theorem max_step (D : TileData xn lab i0 j x0 x1 x2 x3 x4 x5) (p : Fin 1024) (v : Vec Ideal S1024x1 .f32) :
    k0_pay3 (k0_pay8 x0 x1 x4 x5) v (ix2 p 0) = max (v (ix2 p 0)) (Spec.maxTile xn (Spec.row i0 p) j) := by
  unfold k0_pay3
  dsimp only
  rw [shapeCast_self, maximumf_apply, castCol_apply]
  refine congrArg (max (v (ix2 p 0))) ((laneMax_apply _ _ _ _ p).trans ?_)
  unfold Spec.maxTile
  exact congrArg (Finset.fold max ⊥ · Finset.univ) (funext fun q => dist_apply D p q)

end Steps

/-- THE LAST TILE's result: the sum plus one half, less the minimum clipped by the maximum, clipped at zero. -/
theorem fin_step (v68 v69 v71 : Vec Ideal S1024x1 .f32) (p : Fin 1024) :
    k0_pay4 v68 v69 v71 (ix2 p 0) = max (v71 (ix2 p 0) + Spec.HALF - min (v68 (ix2 p 0)) (v69 (ix2 p 0))) 0 := by
  unfold k0_pay4
  rw [maximumf_apply, subf_apply, addf_apply, minimumf_apply, broadcast_apply, broadcast_apply]
  exact congrArg (max _) Ideal.ofBits_zero_f32

/-- THE FIRST TILE's starting sum is zero. -/
theorem pay5_apply (p : Fin 1024) : k0_pay5 (F := Ideal) (ix2 p 0) = 0 := by
  unfold k0_pay5
  rw [shapeCast_self, broadcast_apply]
  exact Ideal.ofBits_zero_f32

/-- THE FIRST TILE's starting minimum is the large seed. -/
theorem pay6_apply (p : Fin 1024) : k0_pay6 (F := Ideal) (ix2 p 0) = Spec.BIG := by
  unfold k0_pay6
  rw [shapeCast_self, broadcast_apply]
  rfl

/-- THE FIRST TILE's starting maximum is zero. -/
theorem pay7_apply (p : Fin 1024) : k0_pay7 (F := Ideal) (ix2 p 0) = 0 := by
  unfold k0_pay7
  rw [shapeCast_self, broadcast_apply]
  exact Ideal.ofBits_zero_f32

end Cert.KernelIdeal.Hand

end
-- ==== Proof.KI.Blocks.lean ====
/-
  What the idealized kernel's region finds in the arrays its windows read, index by index, and what each
  window's block holds at a grid point.

  Before the region the host computes, over exact extended reals where a format change is the identity: the
  given rows' norms; each row divided by its norm clamped below (the normalised rows, handed to the region in
  one array that two windows read); each normalised row's squared norm, as a column and, laid out again, as a
  row; and the given labels laid out as a column and as a row.  Read at an index these arrays are
  `Spec.xnorm` of the given rows, `Spec.sq` of that, and the given labels.

  The grid is 4 row tiles by 8 column tiles.  At the point of row tile i and column tile j the row-tiled
  windows hold rows 1024·i + p of their arrays, the column-tiled window of the rows array holds rows
  512·j + q of the same array, and the column-tiled windows of the one-row arrays hold columns 512·j + q:
  a block's coordinate on an axis is the block index times the block size plus the coordinate inside the
  block, and the block indices are decided once over the 32 grid points.
-/
import proofs.«400854_j84688165142763_3_alg».proof.Proof.KI.Runs
import proofs.«400854_j84688165142763_3_alg».proof.Proof.KI.Tile
import proofs.«400854_j84688165142763_3_alg».proof.Proof.SpecRows
import proofs.«400854_j84688165142763_3_alg».proof.Proof.Gen.ReferenceIdeal.Read
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open scoped BigOperators

variable (m : (ℓ : Loc nD τ sig) → Buf (Elt Ideal) ℓ)

open Cert.ReferenceIdeal.Read

/-! ## The arrays as the host operations' composed terms

The reference program applies the same host operations to its argument, so each array is one of the reference's
values of that argument, or a reshape of one. -/

/-- The rows array: the given rows divided by their broadcast clamped norms (the narrowing is the identity). -/
theorem V_v8_eq (c : Dev nD) :
    (V m c main_v8 : S4096x1024.Idx → EReal) = val_main_v4 (F := Ideal) (m ((c : Thread nD τ).loc main_arg0)) := by
  dsimp only [V, V0]
  simp only [hostOps0, hostOps0_1, List.flatten_cons, List.flatten_nil, List.append_nil, List.cons_append, List.nil_append]
  after_results
  rfl

/-- The column of squared norms: the row sums of the squared quotient, broadcast to a column. -/
theorem V_v7_eq (c : Dev nD) :
    (V m c main_v7 : S4096x1.Idx → EReal) = val_main_v9 (F := Ideal) (m ((c : Thread nD τ).loc main_arg0)) := by
  dsimp only [V, V0]
  simp only [hostOps0, hostOps0_1, List.flatten_cons, List.flatten_nil, List.append_nil, List.cons_append, List.nil_append]
  after_results
  rfl

/-- The row of squared norms: that column reshaped. -/
theorem V_v11_eq (c : Dev nD) :
    (V m c main_v11 : S1x4096.Idx → EReal) = shapeCast S1x4096 (val_main_v9 (F := Ideal) (m ((c : Thread nD τ).loc main_arg0))) shapeCasts_S4096x1_S1x4096 := by
  dsimp only [V, V0]
  simp only [hostOps0, hostOps0_1, List.flatten_cons, List.flatten_nil, List.append_nil, List.cons_append, List.nil_append]
  after_results
  rfl

/-- The column of labels: the given labels reshaped. -/
theorem V_v9_eq (c : Dev nD) :
    (V m c main_v9 : S4096x1.Idx → BitVec 32) = shapeCast S4096x1 (m ((c : Thread nD τ).loc main_arg1) : S4096.Idx → BitVec 32) shapeCasts_S4096_S4096x1 := by
  dsimp only [V, V0]
  simp only [hostOps0, hostOps0_1, List.flatten_cons, List.flatten_nil, List.append_nil, List.cons_append, List.nil_append]
  after_results
  rfl

/-- The row of labels: the given labels reshaped. -/
theorem V_v10_eq (c : Dev nD) :
    (V m c main_v10 : S1x4096.Idx → BitVec 32) = shapeCast S1x4096 (m ((c : Thread nD τ).loc main_arg1) : S4096.Idx → BitVec 32) shapeCasts_S4096_S1x4096 := by
  dsimp only [V, V0]
  simp only [hostOps0, hostOps0_1, List.flatten_cons, List.flatten_nil, List.append_nil, List.cons_append, List.nil_append]
  after_results
  rfl

/-! ## The host chain read at an index -/

/-- The host chain's quotient of an array of rows, read at a row and a column: the entry divided by the row's clamped norm. -/
theorem hostQuot_apply (x : S4096x1024.Idx → EReal) (r : Fin 4096) (k : Fin 1024) :
    val_main_v4 (F := Ideal) x (ValueIdx.ix2 r k) = Spec.xnorm (fun r k => x (ValueIdx.ix2 r k)) r k := by
  have e1 : ∀ k' : Fin 1024, idx_main_call0_v1 (idx_main_call0_v2 (idx_main_v3 (ValueIdx.ix2 r k))) k' = ValueIdx.ix2 r k' :=
    fun k' => funext fun a => by match a with | ⟨0, _⟩ => rfl | ⟨1, _⟩ => rfl
  rw [val_main_v4_apply, val_main_v3_apply, val_main_v2_apply, val_main_v0_apply, val_main_call0_v2_apply,
    val_main_call0_v1_apply, val_main_v1_apply, val_main_cst_apply, val_main_call0_cst_apply]
  unfold Spec.xnorm
  rw [Ideal.ofBits_def, Ideal.ofBits_zero_f32]
  have e2 : ∀ k' : Fin 1024, val_main_call0_v0 (F := Ideal) x (idx_main_call0_v1 (idx_main_call0_v2 (idx_main_v3 (ValueIdx.ix2 r k))) k')
      = x (ValueIdx.ix2 r k') * x (ValueIdx.ix2 r k') := fun k' => by rw [e1 k']; rfl
  rw [Finset.sum_congr rfl fun k' _ => e2 k']
  rfl

/-- The host chain's squared norms of the quotient rows, read at a row. -/
theorem hostRowSq_apply (x : S4096x1024.Idx → EReal) (r : Fin 4096) :
    val_main_v9 (F := Ideal) x (ValueIdx.ix2 r (0 : Fin 1)) = Spec.sq (Spec.xnorm (fun r k => x (ValueIdx.ix2 r k))) r := by
  have e1 : ∀ k : Fin 1024, idx_main_v8 (idx_main_v9 (ValueIdx.ix2 r (0 : Fin 1))) k = ValueIdx.ix2 r k :=
    fun k => funext fun a => by match a with | ⟨0, _⟩ => rfl | ⟨1, _⟩ => rfl
  rw [val_main_v9_apply, val_main_v8_apply, val_main_cst_0_apply]
  unfold Spec.sq
  rw [Ideal.ofBits_def, Ideal.ofBits_zero_f32, zero_add]
  refine Finset.sum_congr rfl fun k _ => ?_
  rw [val_main_v7_apply, e1 k, hostQuot_apply]
  rfl

/-- The rows the program is given, by row and column. -/
abbrev argRows (c : Dev nD) : Fin 4096 → Fin 1024 → EReal :=
  fun r k => (m ((c : Thread nD τ).loc main_arg0) : S4096x1024.Idx → EReal) (ValueIdx.ix2 r k)
/-- The labels the program is given, by row. -/
abbrev argLabels (c : Dev nD) : Fin 4096 → BitVec 32 :=
  fun r => (m ((c : Thread nD τ).loc main_arg1) : S4096.Idx → BitVec 32) (ValueIdx.ix1 r)
/-- The given rows, each divided by its clamped norm. -/
abbrev normRows (c : Dev nD) : Fin 4096 → Fin 1024 → EReal := Spec.xnorm (argRows m c)

/-! ## The arrays the region finds, index by index -/

/-- The array both row windows stage holds the normalised rows. -/
theorem V_v8_apply (c : Dev nD) (r : Fin 4096) (k : Fin 1024) :
    (V m c main_v8 : S4096x1024.Idx → EReal) (ValueIdx.ix2 r k) = normRows m c r k := by
  rw [V_v8_eq]
  exact hostQuot_apply _ r k

/-- The column of squared norms holds each normalised row's squared norm. -/
theorem V_v7_apply (c : Dev nD) (r : Fin 4096) :
    (V m c main_v7 : S4096x1.Idx → EReal) (ValueIdx.ix2 r (0 : Fin 1)) = Spec.sq (normRows m c) r := by
  rw [V_v7_eq]
  exact hostRowSq_apply _ r

/-- The row of squared norms is that column laid out as one row. -/
theorem V_v11_apply (c : Dev nD) (r : Fin 4096) :
    (V m c main_v11 : S1x4096.Idx → EReal) (ValueIdx.ix2 (0 : Fin 1) r) = Spec.sq (normRows m c) r := by
  rw [V_v11_eq]
  refine (shapeCast_apply _ shapeCasts_S4096x1_S1x4096 (ValueIdx.ix2 (0 : Fin 1) r) (ValueIdx.ix2 r (0 : Fin 1)) ?_).trans (hostRowSq_apply _ r)
  rw [Shape.rowMajor_val_two, Shape.rowMajor_val_two]
  show r.val * 1 + 0 = 0 * 4096 + r.val
  omega

/-- The column of labels is the given labels laid out as one column. -/
theorem V_v9_apply (c : Dev nD) (r : Fin 4096) :
    (V m c main_v9 : S4096x1.Idx → BitVec 32) (ValueIdx.ix2 r (0 : Fin 1)) = argLabels m c r := by
  rw [V_v9_eq]
  refine shapeCast_apply _ shapeCasts_S4096_S4096x1 (ValueIdx.ix2 r (0 : Fin 1)) (ValueIdx.ix1 r) ?_
  rw [Shape.rowMajor_val_one, Shape.rowMajor_val_two]
  show r.val = r.val * 1 + 0
  omega

/-- The row of labels is the given labels laid out as one row. -/
theorem V_v10_apply (c : Dev nD) (r : Fin 4096) :
    (V m c main_v10 : S1x4096.Idx → BitVec 32) (ValueIdx.ix2 (0 : Fin 1) r) = argLabels m c r := by
  rw [V_v10_eq]
  refine shapeCast_apply _ shapeCasts_S4096_S1x4096 (ValueIdx.ix2 (0 : Fin 1) r) (ValueIdx.ix1 r) ?_
  rw [Shape.rowMajor_val_one, Shape.rowMajor_val_two]
  show r.val = 0 * 4096 + r.val
  omega

/-! ## The windows' blocks -/

/-- The row tile of grid point `t`. -/
abbrev rowTile (t : Fin cfg0.N) : Fin 4 := ⟨(grid0.coords t 0).val, (grid0.coords t 0).isLt⟩
/-- The column tile of grid point `t`. -/
abbrev colTile (t : Fin cfg0.N) : Fin 8 := ⟨(grid0.coords t 1).val, (grid0.coords t 1).isLt⟩

/-- The index maps over the grid: a row-tiled window sits at block (row tile, 0), the column-tiled window of the
    rows array at block (column tile, 0), a column-tiled window of a one-row array at block (0, column tile). -/
theorem tileIdx_facts : ∀ t : Fin cfg0.N,
    win0_0.index t (0 : Fin 2) = (grid0.coords t 0).val ∧ win0_0.index t (1 : Fin 2) = 0
  ∧ win0_1.index t (0 : Fin 2) = (grid0.coords t 1).val ∧ win0_1.index t (1 : Fin 2) = 0
  ∧ win0_2.index t (0 : Fin 2) = (grid0.coords t 0).val ∧ win0_2.index t (1 : Fin 2) = 0
  ∧ win0_3.index t (0 : Fin 2) = 0 ∧ win0_3.index t (1 : Fin 2) = (grid0.coords t 1).val
  ∧ win0_4.index t (0 : Fin 2) = (grid0.coords t 0).val ∧ win0_4.index t (1 : Fin 2) = 0
  ∧ win0_5.index t (0 : Fin 2) = 0 ∧ win0_5.index t (1 : Fin 2) = (grid0.coords t 1).val :=
  (by decide +kernel : ∀ t : Fin grid0.N, _)

/-- Window 0's block: rows `1024·i + p` of the rows array. -/
theorem blk0_apply (c : Dev nD) (t : Fin cfg0.N) (p k : Fin 1024) :
    iblk m c 0 t (ValueIdx.ix2 p k) = (V m c main_v8 : S4096x1024.Idx → EReal) (ValueIdx.ix2 (Spec.row (rowTile t) p) k) := by
  obtain ⟨e0, e1, -⟩ := tileIdx_facts t
  unfold iblk
  show (V m c main_v8 : S4096x1024.Idx → EReal) (((cfg0.win 0).blk t).view.emb (ValueIdx.ix2 p k)) = _
  refine congrArg _ (funext fun a => Fin.ext ?_)
  match a with
  | ⟨0, _⟩ => show win0_0.index t (0 : Fin 2) * 1024 + 1 * p.val = 1024 * (grid0.coords t 0).val + p.val; omega
  | ⟨1, _⟩ => show win0_0.index t (1 : Fin 2) * 1024 + 1 * k.val = k.val; omega

/-- Window 1's block: rows `512·j + q` of the same rows array. -/
theorem blk1_apply (c : Dev nD) (t : Fin cfg0.N) (q : Fin 512) (k : Fin 1024) :
    iblk m c 1 t (ValueIdx.ix2 q k) = (V m c main_v8 : S4096x1024.Idx → EReal) (ValueIdx.ix2 (Spec.col (colTile t) q) k) := by
  obtain ⟨-, -, e0, e1, -⟩ := tileIdx_facts t
  unfold iblk
  show (V m c main_v8 : S4096x1024.Idx → EReal) (((cfg0.win 1).blk t).view.emb (ValueIdx.ix2 q k)) = _
  refine congrArg _ (funext fun a => Fin.ext ?_)
  match a with
  | ⟨0, _⟩ => show win0_1.index t (0 : Fin 2) * 512 + 1 * q.val = 512 * (grid0.coords t 1).val + q.val; omega
  | ⟨1, _⟩ => show win0_1.index t (1 : Fin 2) * 1024 + 1 * k.val = k.val; omega

/-- Window 2's block: the labels of rows `1024·i + p`. -/
theorem blk2_apply (c : Dev nD) (t : Fin cfg0.N) (p : Fin 1024) :
    iblk m c 2 t (ValueIdx.ix2 p (0 : Fin 1)) = (V m c main_v9 : S4096x1.Idx → BitVec 32) (ValueIdx.ix2 (Spec.row (rowTile t) p) (0 : Fin 1)) := by
  obtain ⟨-, -, -, -, e0, e1, -⟩ := tileIdx_facts t
  unfold iblk
  show (V m c main_v9 : S4096x1.Idx → BitVec 32) (((cfg0.win 2).blk t).view.emb (ValueIdx.ix2 p (0 : Fin 1))) = _
  refine congrArg _ (funext fun a => Fin.ext ?_)
  match a with
  | ⟨0, _⟩ => show win0_2.index t (0 : Fin 2) * 1024 + 1 * p.val = 1024 * (grid0.coords t 0).val + p.val; omega
  | ⟨1, _⟩ => show win0_2.index t (1 : Fin 2) * 1 + 1 * 0 = 0; omega

/-- Window 3's block: the labels of columns `512·j + q`. -/
theorem blk3_apply (c : Dev nD) (t : Fin cfg0.N) (q : Fin 512) :
    iblk m c 3 t (ValueIdx.ix2 (0 : Fin 1) q) = (V m c main_v10 : S1x4096.Idx → BitVec 32) (ValueIdx.ix2 (0 : Fin 1) (Spec.col (colTile t) q)) := by
  obtain ⟨-, -, -, -, -, -, e0, e1, -⟩ := tileIdx_facts t
  unfold iblk
  show (V m c main_v10 : S1x4096.Idx → BitVec 32) (((cfg0.win 3).blk t).view.emb (ValueIdx.ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = 512 * (grid0.coords t 1).val + q.val; omega

/-- Window 4's block: the squared norms of rows `1024·i + p`. -/
theorem blk4_apply (c : Dev nD) (t : Fin cfg0.N) (p : Fin 1024) :
    iblk m c 4 t (ValueIdx.ix2 p (0 : Fin 1)) = (V m c main_v7 : S4096x1.Idx → EReal) (ValueIdx.ix2 (Spec.row (rowTile t) p) (0 : Fin 1)) := by
  obtain ⟨-, -, -, -, -, -, -, -, e0, e1, -⟩ := tileIdx_facts t
  unfold iblk
  show (V m c main_v7 : S4096x1.Idx → EReal) (((cfg0.win 4).blk t).view.emb (ValueIdx.ix2 p (0 : Fin 1))) = _
  refine congrArg _ (funext fun a => Fin.ext ?_)
  match a with
  | ⟨0, _⟩ => show win0_4.index t (0 : Fin 2) * 1024 + 1 * p.val = 1024 * (grid0.coords t 0).val + p.val; omega
  | ⟨1, _⟩ => show win0_4.index t (1 : Fin 2) * 1 + 1 * 0 = 0; omega

/-- Window 5's block: the squared norms of columns `512·j + q`. -/
theorem blk5_apply (c : Dev nD) (t : Fin cfg0.N) (q : Fin 512) :
    iblk m c 5 t (ValueIdx.ix2 (0 : Fin 1) q) = (V m c main_v11 : S1x4096.Idx → EReal) (ValueIdx.ix2 (0 : Fin 1) (Spec.col (colTile t) q)) := by
  obtain ⟨-, -, -, -, -, -, -, -, -, -, e0, e1⟩ := tileIdx_facts t
  unfold iblk
  show (V m c main_v11 : S1x4096.Idx → EReal) (((cfg0.win 5).blk t).view.emb (ValueIdx.ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * q.val = 512 * (grid0.coords t 1).val + q.val; omega

/-- At grid point `t` the six input blocks are the normalised rows, labels and squared norms of row tile `i` and
    column tile `j`. -/
theorem tileData (c : Dev nD) (t : Fin cfg0.N) :
    TileData (normRows m c) (argLabels m c) (rowTile t) (colTile t)
      (iblk m c 0 t) (iblk m c 1 t) (iblk m c 2 t) (iblk m c 3 t) (iblk m c 4 t) (iblk m c 5 t) where
  h0 p k := (blk0_apply m c t p k).trans (V_v8_apply m c _ k)
  h1 q k := (blk1_apply m c t q k).trans (V_v8_apply m c _ k)
  h2 p := (blk2_apply m c t p).trans (V_v9_apply m c _)
  h3 q := (blk3_apply m c t q).trans (V_v10_apply m c _)
  h4 p := (blk4_apply m c t p).trans (V_v7_apply m c _)
  h5 q := (blk5_apply m c t q).trans (V_v11_apply m c _)

end Cert.KernelIdeal.Hand

end
-- ==== Proof.KI.Value.lean ====
/-
  The region of the idealized kernel leaves, in its result array, each row's loss taken tile by tile.

  The grid has 4 row tiles of 1024 rows by 8 column tiles of 512 columns; grid point `t` is column tile
  `t mod 8` of row tile `t / 8`.  Along a row tile the body carries, for every row `r` of the tile, three
  statistics of the squared distances `l2 r c` between normalised rows: the sum over the same-label columns
  `c ≠ r`, the minimum over the other-label columns (a same-label column standing at a large finite number)
  and the maximum over all columns.

  By induction along the grid, after column tile `j` the three scratch buffers hold `Spec.posAcc`,
  `Spec.negAcc` and `Spec.maxAcc` of the first `j + 1` tiles: the first column tile feeds tile 0 to the resets
  `0`, the large seed and `0`; every later one feeds its tile to what the point before left, on the same rows.
  After the last column tile the losses' window holds `max (sum + 1/2 − min (minimum, maximum), 0)` of the
  three statistics over all eight tiles, which is `Spec.lossK`.  That window is written back exactly at the
  last column tile of each row tile, to rows `1024·(t / 8) …` of the result array; the four write-backs
  cover the 4096 rows, so the result array is `Spec.lossK` row by row.
-/
import proofs.«400854_j84688165142763_3_alg».proof.Proof.KI.Pieces
import proofs.«400854_j84688165142763_3_alg».proof.Proof.KI.Tile
import proofs.«400854_j84688165142763_3_alg».proof.Proof.KI.Blocks
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The three statistics along a row tile -/

section Rows

variable (m : (ℓ : Loc nD τ sig) → Buf (Elt Ideal) ℓ)

/-- Grid point `t` is column tile `t mod 8` of row tile `t / 8`. -/
theorem coords_eq : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The row tile of grid point `t`: its first grid coordinate. -/
def rowOf (t : Fin cfg0.N) : Fin 4 := rowTile t
/-- The column tile of grid point `t`: its second grid coordinate. -/
def colOf (t : Fin cfg0.N) : Fin 8 := colTile t

theorem rowOf_val (t : Fin cfg0.N) : (rowOf t).val = t.val / 8 := (coords_eq t).1
theorem colOf_val (t : Fin cfg0.N) : (colOf t).val = t.val % 8 := (coords_eq t).2

/-- Tile `j` is tile `j`. -/
theorem tile_val (j : Fin 8) : Spec.tile j.val = j := Fin.ext (Nat.mod_eq_of_lt j.isLt)

/-- After grid point `t` (row tile `i0`, column tile `j`) the three scratch buffers hold, at row `p` of the row tile,
    the running sum, the running minimum and the running maximum over the column tiles `0 … j`. -/
def StatsAt (c : Dev nD) (t : Fin cfg0.N) (p : Fin 1024) : Prop :=
    (outsAt0 (F := Ideal) m c t.val t.isLt).2.1 (ix2 p (0 : Fin 1))
        = Spec.posAcc (normRows m c) (argLabels m c) (Spec.row (rowOf t) p) ((colOf t).val + 1)
    ∧ (outsAt0 (F := Ideal) m c t.val t.isLt).2.2.1 (ix2 p (0 : Fin 1))
        = Spec.negAcc (normRows m c) (argLabels m c) (Spec.row (rowOf t) p) ((colOf t).val + 1)
    ∧ (outsAt0 (F := Ideal) m c t.val t.isLt).2.2.2 (ix2 p (0 : Fin 1))
        = Spec.maxAcc (normRows m c) (Spec.row (rowOf t) p) ((colOf t).val + 1)

/-- At a row tile's first column tile: the resets `0`, the large seed and `0`, fed tile 0. -/
theorem stats_first (c : Dev nD) (t : Fin cfg0.N) (h0 : t.val % 8 = 0) (h1 : ¬t.val % 8 = 7) (p : Fin 1024) :
    StatsAt m c t p := by
  have hj : (colOf t).val = 0 := (colOf_val t).trans h0
  have D : TileData (normRows m c) (argLabels m c) (rowOf t) (colOf t) (iblk m c 0 t) (iblk m c 1 t) (iblk m c 2 t) (iblk m c 3 t) (iblk m c 4 t) (iblk m c 5 t) := tileData m c t
  unfold StatsAt
  rw [outsAt0_A m c t h0 h1]
  dsimp only
  refine ⟨?_, ?_, ?_⟩
  · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p (0 : Fin 1))).trans ?_
    refine (pos_step (i0 := rowOf t) (j := colOf t) (grid0.coords t) rfl rfl D p (k0_pay5 (F := Ideal))).trans ?_
    rw [pay5_apply p, Spec.posAcc, tile_val, hj, Spec.posAcc]
  · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p (0 : Fin 1))).trans ?_
    refine (neg_step D p (k0_pay6 (F := Ideal))).trans ?_
    rw [pay6_apply p, Spec.negAcc, tile_val, hj, Spec.negAcc]
  · refine (congrFun (sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)) (ix2 p (0 : Fin 1))).trans ?_
    refine (max_step D p (k0_pay7 (F := Ideal))).trans ?_
    rw [pay7_apply p, Spec.maxAcc, tile_val, hj, Spec.maxAcc]

/-- At a later column tile: what the point before left (same row tile, the column tile before), fed this tile. -/
theorem stats_next (c : Dev nD) (t : Fin cfg0.N) (h0 : ¬t.val % 8 = 0)
    (prev : ∀ p, StatsAt m c ⟨t.val - 1, Nat.lt_of_le_of_lt (Nat.sub_le _ _) t.isLt⟩ p) (p : Fin 1024) :
    StatsAt m c t p := by
  have hk : t.val - 1 < cfg0.N := Nat.lt_of_le_of_lt (Nat.sub_le _ _) t.isLt
  have er : rowOf ⟨t.val - 1, hk⟩ = rowOf t := Fin.ext (by
    rw [rowOf_val, rowOf_val]
    show (t.val - 1) / 8 = t.val / 8
    omega)
  have ec : (colOf ⟨t.val - 1, hk⟩).val + 1 = (colOf t).val := by
    rw [colOf_val, colOf_val]
    show (t.val - 1) % 8 + 1 = t.val % 8
    omega
  have q := prev p
  unfold StatsAt at q
  rw [er, ec] at q
  obtain ⟨q0, q1, q2⟩ := q
  have D : TileData (normRows m c) (argLabels m c) (rowOf t) (colOf t) (iblk m c 0 t) (iblk m c 1 t) (iblk m c 2 t) (iblk m c 3 t) (iblk m c 4 t) (iblk m c 5 t) := tileData m c t
  unfold StatsAt
  by_cases h1 : t.val % 8 = 7
  · rw [outsAt0_C m c t h0 h1]
    dsimp only
    refine ⟨?_, ?_, ?_⟩
    · refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (pos_step (i0 := rowOf t) (j := colOf t) (grid0.coords t) rfl rfl D p (outsAt0 (F := Ideal) m c (t.val - 1) (Nat.lt_of_le_of_lt (Nat.sub_le _ _) t.isLt)).2.1).trans ?_
      rw [q0, Spec.posAcc, tile_val]
    · refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (neg_step D p (outsAt0 (F := Ideal) m c (t.val - 1) (Nat.lt_of_le_of_lt (Nat.sub_le _ _) t.isLt)).2.2.1).trans ?_
      rw [q1, Spec.negAcc, tile_val]
    · refine (congrFun (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (max_step D p (outsAt0 (F := Ideal) m c (t.val - 1) (Nat.lt_of_le_of_lt (Nat.sub_le _ _) t.isLt)).2.2.2).trans ?_
      rw [q2, Spec.maxAcc, tile_val]
  · rw [outsAt0_B m c t h0 h1]
    dsimp only
    refine ⟨?_, ?_, ?_⟩
    · refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (pos_step (i0 := rowOf t) (j := colOf t) (grid0.coords t) rfl rfl D p (outsAt0 (F := Ideal) m c (t.val - 1) (Nat.lt_of_le_of_lt (Nat.sub_le _ _) t.isLt)).2.1).trans ?_
      rw [q0, Spec.posAcc, tile_val]
    · refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (neg_step D p (outsAt0 (F := Ideal) m c (t.val - 1) (Nat.lt_of_le_of_lt (Nat.sub_le _ _) t.isLt)).2.2.1).trans ?_
      rw [q1, Spec.negAcc, tile_val]
    · refine (congrFun (sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
      refine (max_step D p (outsAt0 (F := Ideal) m c (t.val - 1) (Nat.lt_of_le_of_lt (Nat.sub_le _ _) t.isLt)).2.2.2).trans ?_
      rw [q2, Spec.maxAcc, tile_val]

/-- So at every grid point, by induction along the grid. -/
theorem stats_at (c : Dev nD) : ∀ (n : ℕ) (hn : n < cfg0.N) (p : Fin 1024), StatsAt m c ⟨n, hn⟩ p := by
  intro n
  induction n with
  | zero => exact fun hn p => stats_first m c ⟨0, hn⟩ rfl (by show ¬0 % 8 = 7; omega) p
  | succ k ih =>
    intro hn p
    by_cases h0 : (k + 1) % 8 = 0
    · exact stats_first m c ⟨k + 1, hn⟩ h0 (by show ¬(k + 1) % 8 = 7; omega) p
    · exact stats_next m c ⟨k + 1, hn⟩ h0 (fun p' => ih (Nat.lt_of_succ_lt hn) p') p

/-- At a row tile's last column tile the losses' window holds, at every row of the row tile, the row's loss taken tile by tile. -/
theorem loss_at (c : Dev nD) (t : Fin cfg0.N) (h1 : t.val % 8 = 7) (p : Fin 1024) :
    (outsAt0 (F := Ideal) m c t.val t.isLt).1 (ix2 p (0 : Fin 1))
      = Spec.lossK (normRows m c) (argLabels m c) (Spec.row (rowOf t) p) := by
  have h0 : ¬t.val % 8 = 0 := by omega
  have hj : (colOf t).val + 1 = 8 := by rw [colOf_val]; omega
  have q : StatsAt m c t p := stats_at m c t.val t.isLt p
  unfold StatsAt at q
  rw [hj] at q
  obtain ⟨q0, q1, q2⟩ := q
  rw [outsAt0_C m c t h0 h1] at q0 q1 q2 ⊢
  dsimp only at q0 q1 q2 ⊢
  have e0 := (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).symm.trans q0
  have e1 := (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).symm.trans q1
  have e2 := (congrFun (sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).symm.trans q2
  refine (congrFun (out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2.1 (outsAt0 (F := Ideal) m c (t.val - 1) (Nat.lt_of_le_of_lt (Nat.sub_le _ _) t.isLt)).2.2.2) (ix2 p (0 : Fin 1))).trans ?_
  refine (fin_step _ _ _ p).trans ?_
  rw [e0, e1, e2]
  rfl

/-- The losses, row by row: what the region's result array holds in the end. -/
abbrev lossRows (c : Dev nD) : S4096x1.Idx → EReal := fun i => Spec.lossK (normRows m c) (argLabels m c) (i 0)

/-- The losses' window at point `t` is block `t / 8` of the result array's rows. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- What a last column tile's point writes back is its block of the rows' losses. -/
theorem flushed_eq (c : Dev nD) (t : Fin cfg0.N) (hf : (cfg0.win 6).flush t = true) :
    (dats (F := Ideal) m 0 c).flushed 6 t = ((cfg0.win 6).blk t).view.read (Elt Ideal) (lossRows m c) := by
  have h7 : t.val % 8 = 7 := (flush0_6 t).mp hf
  show (cfg0.win 6).cut (grid0.coords t) ((dats (F := Ideal) m 0 c).after 6 t) = _
  rw [after0_6]
  funext y
  obtain ⟨a, b, rfl⟩ : ∃ (a : Fin 1024) (b : Fin 1), y = (ix2 a b : S1024x1.Idx) := ⟨y 0, y 1, eq_ix2 (n0 := 1024) (n1 := 1) y⟩
  obtain rfl : b = 0 := Subsingleton.elim _ _
  rw [View.read_apply]
  refine (loss_at m c t h7 a).trans (congrArg (Spec.lossK (normRows m c) (argLabels m c)) (Fin.ext ?_))
  show 1024 * (rowOf t).val + a.val = win0_6.index t (0 : Fin 2) * 1024 + 1 * a.val
  rw [rowOf_val, (idx6 t).1]
  omega

/-- Every row of the result array is in the block some last column tile's point writes back. -/
theorem covered (i : S4096x1.Idx) :
    ∃ t : Fin cfg0.N, (cfg0.win 6).flush t = true ∧ i ∈ ((cfg0.win 6).blk t).view.set := by
  have hN : cfg0.N = 32 := N_0
  have hi : (i 0).val < 4096 := (i 0).isLt
  have hi1 : (i 1).val < 1 := (i 1).isLt
  obtain ⟨t, ht⟩ : ∃ t : Fin cfg0.N, t.val = 8 * ((i 0).val / 1024) + 7 := ⟨⟨8 * ((i 0).val / 1024) + 7, by rw [hN]; omega⟩, rfl⟩
  have e0 : win0_6.index t (0 : Fin 2) = t.val / 8 := (idx6 t).1
  have e1 : win0_6.index t (1 : Fin 2) = 0 := (idx6 t).2
  refine ⟨t, (flush0_6 t).mpr (by rw [ht]; omega), ?_⟩
  show i ∈ ((View.whole main_v12).slice (win0_6.rect t)).set
  rw [View.set_slice_whole, Rect.mem_set_unit]
  intro a
  match a with
  | ⟨0, _⟩ =>
    show win0_6.index t (0 : Fin 2) * 1024 ≤ (i 0).val ∧ (i 0).val < win0_6.index t (0 : Fin 2) * 1024 + 1024
    rw [e0, ht]
    omega
  | ⟨1, _⟩ =>
    show win0_6.index t (1 : Fin 2) * 1 ≤ (i 1).val ∧ (i 1).val < win0_6.index t (1 : Fin 2) * 1 + 1
    rw [e1]
    omega

/-- The region's result array holds, row by row, the row's loss taken tile by tile over the normalised rows. -/
theorem value (c : Dev nD) :
    (dats (F := Ideal) m 0 c).arrAt 6 cfg0.N = fun i => Cert.Spec.lossK (normRows m c) (argLabels m c) (i 0) :=
  (dats (F := Ideal) m 0 c).arrAt_eq_of_cover 6 (lossRows m c) (flushed_eq m c) covered

end Rows

end Cert.KernelIdeal.Hand

end
-- ==== Proof.Ref.Norm.lean ====
/-
  The reference's first stage: every row of the input divided by its Euclidean norm, the norm clamped below.
  Read index by index, the normalised array at row `r`, column `k` is `Spec.xnorm` of the input's rows there.
-/
import proofs.«400854_j84688165142763_3_alg».proof.Proof.Gen.ReferenceIdeal.Run
import proofs.«400854_j84688165142763_3_alg».proof.Proof.Gen.ReferenceIdeal.Read
import proofs.«400854_j84688165142763_3_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The rows as a function of the two coordinates. -/
abbrev X (x : (⟨S4096x1024, .f32⟩ : BufTy).Contents (Elt Ideal)) : Fin 4096 → Fin 1024 → EReal := fun r k => x (ix2 r k)
/-- The labels as a function of the row. -/
abbrev L (lab : (⟨S4096, .i32⟩ : BufTy).Contents (Elt Ideal)) : Fin 4096 → BitVec 32 := fun r => lab (ix1 r)

/-- The row-sum of squares under the norm reads the input at row `r`, whatever column the quotient is taken at. -/
theorem idx_normRow (r : Fin 4096) (k k' : Fin 1024) :
    idx_main_call0_v1 (idx_main_call0_v2 (idx_main_v3 (ix2 r k))) k' = ix2 r k' := by
  funext a; match a with | ⟨0, _⟩ => rfl | ⟨1, _⟩ => rfl

/-- The clamped norm of row `r`, as the quotient's divisor reads it. -/
theorem ref_norm (x : (⟨S4096x1024, .f32⟩ : BufTy).Contents (Elt Ideal)) (r : Fin 4096) (k : Fin 1024) :
    val_main_v3 (F := Ideal) x (ix2 r k)
      = max (Ideal.sqrt (0 + ∑ k' : Fin 1024, X x r k' * X x r k')) Cert.Spec.EPS := by
  rw [val_main_v3_apply, val_main_v2_apply, val_main_v0_apply, val_main_call0_v2_apply, val_main_call0_v1_apply,
    val_main_v1_apply, val_main_cst_apply, val_main_call0_cst_apply]
  simp only [val_main_call0_v0_apply, idx_normRow, Ideal.maximumf_def, Ideal.hostUnary_sqrt_def, Ideal.ofBits_def,
    Ideal.mulf_def, Ideal.ofBits_zero_f32]

/-- The normalised array at row `r`, column `k`. -/
theorem ref_xn (x : (⟨S4096x1024, .f32⟩ : BufTy).Contents (Elt Ideal)) (r : Fin 4096) (k : Fin 1024) :
    val_main_v4 (F := Ideal) x (ix2 r k) = Cert.Spec.xnorm (X x) r k := by
  rw [val_main_v4_apply, ref_norm]
  rfl

end Cert.ReferenceIdeal.RefValue

end
-- ==== Proof.Ref.Dist.lean ====
/-
  The reference's distance stage: for rows `r`, `c` of the normalised array, the squared norms of the two rows
  (each a row sum started from zero) added, twice their inner product taken off, the difference clipped at zero.
  Read index by index this is `Spec.l2` of the normalised rows.
-/
import proofs.«400854_j84688165142763_3_alg».proof.Proof.Ref.Norm

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The inner product's left factor is row `r` of the normalised array. -/
theorem idx_dotL (r c : Fin 4096) (k : Fin 1024) : lidx_main_v6 (ix2 r c) k = ix2 r k := by
  funext a; match a with | ⟨0, _⟩ => rfl | ⟨1, _⟩ => rfl

/-- The inner product's right factor, read through the transpose, is row `c` of the normalised array. -/
theorem idx_dotR (r c : Fin 4096) (k : Fin 1024) : idx_main_v5 (ridx_main_v6 (ix2 r c) k) = ix2 c k := by
  funext a; match a with | ⟨0, _⟩ => rfl | ⟨1, _⟩ => rfl

/-- A row's squared norm, as the reference sums it from zero. -/
theorem ref_sq (x : (⟨S4096x1024, .f32⟩ : BufTy).Contents (Elt Ideal)) (r : Fin 4096) :
    val_main_v8 (F := Ideal) x (ix1 r) = Cert.Spec.sq (Cert.Spec.xnorm (X x)) r := by
  rw [val_main_v8_apply, val_main_cst_0_apply]
  have hi : ∀ k : Fin 1024, idx_main_v8 (ix1 r) k = ix2 r k := fun k => by
    funext a; match a with | ⟨0, _⟩ => rfl | ⟨1, _⟩ => rfl
  simp only [val_main_v7_apply, hi, ref_xn, Ideal.ofBits_def, Ideal.mulf_def, Ideal.ofBits_zero_f32, zero_add]
  rfl

/-- The inner product of rows `r` and `c`. -/
theorem ref_dot (x : (⟨S4096x1024, .f32⟩ : BufTy).Contents (Elt Ideal)) (r c : Fin 4096) :
    val_main_v6 (F := Ideal) x (ix2 r c) = Cert.Spec.dot (Cert.Spec.xnorm (X x)) r c := by
  rw [val_main_v6_apply]
  simp only [val_main_v5_apply, idx_dotL, idx_dotR, ref_xn]
  rfl

/-- The distance array at row `r`, column `c`. -/
theorem ref_l2 (x : (⟨S4096x1024, .f32⟩ : BufTy).Contents (Elt Ideal)) (r c : Fin 4096) :
    val_main_v18 (F := Ideal) x (ix2 r c) = Cert.Spec.l2 (Cert.Spec.xnorm (X x)) r c := by
  have h9 : idx_main_v9 (idx_main_v11 (ix2 r c)) = ix1 r := by funext a; match a with | ⟨0, _⟩ => rfl
  have h10 : idx_main_v10 (idx_main_v12 (ix2 r c)) = ix1 c := by funext a; match a with | ⟨0, _⟩ => rfl
  rw [val_main_v18_apply, val_main_v16_apply, val_main_v13_apply, val_main_v15_apply, val_main_v11_apply,
    val_main_v12_apply, val_main_v9_apply, val_main_v10_apply, h9, h10, ref_sq, ref_sq, ref_dot,
    val_main_v14_apply, val_main_cst_1_apply, val_main_v17_apply, val_main_cst_2_apply]
  simp only [Ideal.maximumf_def, Ideal.subf_def, Ideal.addf_def, Ideal.mulf_def, Ideal.ofBits_def, Ideal.ofBits_zero_f32]
  rfl

end Cert.ReferenceIdeal.RefValue

end
-- ==== Proof.Ref.Mask.lean ====
/-
  The reference's two label masks, read index by index. A one-bit comparison word converted to a float is
  one where the comparison holds and zero elsewhere; the diagonal is where the row number equals the column
  number. So the same-label-off-diagonal mask at `(r, c)` is `1` exactly when the labels of `r` and `c` agree
  and `r ≠ c`, and one minus the other-label mask is `1 - (if the labels agree then 0 else 1)`.
-/
import proofs.«400854_j84688165142763_3_alg».proof.Proof.Ref.Norm

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- An equality comparison of two words is the bit `1` where they are equal and `0` elsewhere. -/
theorem cmpi_eq_ite {w : Nat} (a b : BitVec w) : IntOp.cmpi .eq a b = if a = b then 1#1 else 0#1 := by
  unfold IntOp.cmpi
  by_cases h : a = b
  · subst h; simp
  · have hb : (a == b) = false := beq_eq_false_iff_ne.2 h
    simp [h, hb]

/-- A one-bit word converted to a float is its bit. -/
theorem uitofp_bit (b : BitVec 1) : FloatOps.uitofp (F := Ideal) .f32 b = if b = 1#1 then (1 : EReal) else 0 := by
  show (((b.toNat : ℝ)) : EReal) = _
  rcases BitVec.eq_zero_or_eq_one b with rfl | rfl <;> simp

/-- The f32 word of one is the extended real one. -/
theorem ofBits_one_f32 : Ideal.ofBits .f32 0x3F800000#32 = 1 := by
  simp [Ideal.ofBits, Ideal.ieee, -EReal.coe_mul]; norm_num

/-- Row numbers below 4096 are told apart by their 32-bit words. -/
theorem ofNat_row_inj (r c : Fin 4096) : BitVec.ofNat 32 r.val = BitVec.ofNat 32 c.val ↔ r = c := by
  constructor
  · intro h
    have h' := congrArg BitVec.toNat h
    simp only [BitVec.toNat_ofNat] at h'
    have hr := r.isLt; have hc := c.isLt
    exact Fin.ext (by omega)
  · rintro rfl; rfl

/-- The label comparison at `(r, c)` compares the labels of rows `r` and `c`. -/
theorem ref_same (lab : (⟨S4096, .i32⟩ : BufTy).Contents (Elt Ideal)) (r c : Fin 4096) :
    val_main_v23 (F := Ideal) lab (ix2 r c) = if L lab r = L lab c then 1#1 else 0#1 := by
  have hr : idx_main_v19 (idx_main_v21 (ix2 r c)) = ix1 r := by funext a; match a with | ⟨0, _⟩ => rfl
  have hc : idx_main_v20 (idx_main_v22 (ix2 r c)) = ix1 c := by funext a; match a with | ⟨0, _⟩ => rfl
  rw [val_main_v23_apply, val_main_v21_apply, val_main_v22_apply, val_main_v19_apply, val_main_v20_apply, hr, hc,
    cmpi_eq_ite]

/-- The diagonal comparison at `(r, c)` is `r = c`. -/
theorem ref_eye (r c : Fin 4096) :
    val_main_v28 (F := Ideal) (ix2 r c) = if r = c then 1#1 else 0#1 := by
  rw [val_main_v28_apply, val_main_v27_apply, val_main_v24_apply, val_main_v25_apply, val_main_v26_apply,
    val_main_c_apply, cmpi_eq_ite]
  show (if IntOp.addi (BitVec.ofNat 32 r.val) 0#32 = BitVec.ofNat 32 c.val then 1#1 else 0#1) = _
  have h0 : IntOp.addi (BitVec.ofNat 32 r.val) 0#32 = BitVec.ofNat 32 r.val := by
    unfold IntOp.addi; exact BitVec.add_zero _
  rw [h0]
  by_cases h : r = c
  · rw [if_pos ((ofNat_row_inj r c).2 h), if_pos h]
  · rw [if_neg (fun e => h ((ofNat_row_inj r c).1 e)), if_neg h]

/-- The same-label-off-diagonal mask, as a float. -/
theorem ref_posMask (lab : (⟨S4096, .i32⟩ : BufTy).Contents (Elt Ideal)) (r c : Fin 4096) :
    val_main_v31 (F := Ideal) lab (ix2 r c) = if L lab r = L lab c ∧ r ≠ c then (1 : EReal) else 0 := by
  rw [val_main_v31_apply, val_main_v30_apply, val_main_v29_apply, ref_same, ref_eye, uitofp_bit]
  unfold IntOp.andi
  by_cases hl : L lab r = L lab c <;> by_cases hd : r = c <;> simp [hl, hd]

/-- One minus the other-label mask. -/
theorem ref_negMask (lab : (⟨S4096, .i32⟩ : BufTy).Contents (Elt Ideal)) (r c : Fin 4096) :
    val_main_v40 (F := Ideal) lab (ix2 r c) = 1 - (if L lab r = L lab c then (0 : EReal) else 1) := by
  rw [val_main_v40_apply, val_main_v39_apply, val_main_cst_5_apply, val_main_v33_apply, val_main_v32_apply, ref_same,
    uitofp_bit, Ideal.subf_def, Ideal.ofBits_def, ofBits_one_f32]
  by_cases hl : L lab r = L lab c <;> simp [hl]

end Cert.ReferenceIdeal.RefValue

end
-- ==== Proof.Ref.Loss.lean ====
/-
  The reference's per-row loss. Over a whole row `r` of the distance array it takes the sum of the entries under
  the same-label-off-diagonal mask (`Spec.posRef`), the largest entry (`Spec.maxRef`: a fold of `max` from `-∞`),
  and the smallest entry after every same-label entry is pushed up by that largest one (`Spec.negRef`: a fold of
  `min` from `+∞`); the loss is `max (pos + 1/2 − neg, 0)` (`Spec.lossRef`).
-/
import proofs.«400854_j84688165142763_3_alg».proof.Proof.Ref.Dist
import proofs.«400854_j84688165142763_3_alg».proof.Proof.Ref.Mask

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The distance array loses its column axis in each of the row reductions. -/
theorem redCols : S4096x4096.Reduces [1] S4096 := by decide

/-- The index over row `r` with column `c` put back on the dropped axis. -/
theorem lift_row (r : Fin 4096) (c : Fin (S4096x4096.size 1)) :
    redCols.lift (ix1 r) c = ix2 r (⟨c.val, c.isLt⟩ : Fin 4096) := by
  funext a
  apply Fin.ext
  refine (Shape.Reduces.lift_val redCols (ix1 r) c a).trans ?_
  unfold Shape.Reduces.liftVal
  match a with
  | ⟨0, _⟩ => rfl
  | ⟨1, _⟩ => rfl

/-- The f32 word of `-∞` is the bottom of the extended reals. -/
theorem ofBits_negInf_f32 : Ideal.ofBits .f32 0xFF800000#32 = ⊥ := by simp [Ideal.ofBits, Ideal.ieee]
/-- The f32 word of `+∞` is the top of the extended reals. -/
theorem ofBits_posInf_f32 : Ideal.ofBits .f32 0x7F800000#32 = ⊤ := by simp [Ideal.ofBits, Ideal.ieee]

/-- The masked row sum of distances, started from zero. -/
theorem ref_pos (x : (⟨S4096x1024, .f32⟩ : BufTy).Contents (Elt Ideal)) (lab : (⟨S4096, .i32⟩ : BufTy).Contents (Elt Ideal))
    (r : Fin 4096) :
    val_main_v35 (F := Ideal) x lab (ix1 r) = Cert.Spec.posRef (Cert.Spec.xnorm (X x)) (L lab) r := by
  rw [val_main_v35_apply, val_main_cst_3_apply]
  have hi : ∀ c : Fin 4096, idx_main_v35 (ix1 r) c = ix2 r c := fun c => by
    funext a; match a with | ⟨0, _⟩ => rfl | ⟨1, _⟩ => rfl
  simp only [hi, val_main_v34_apply, ref_posMask, ref_l2, Ideal.ofBits_def, Ideal.ofBits_zero_f32, Ideal.mulf_def, zero_add]
  rfl

/-- The row's largest distance. -/
theorem ref_max (x : (⟨S4096x1024, .f32⟩ : BufTy).Contents (Elt Ideal)) (r : Fin 4096) :
    val_main_v37 (F := Ideal) x (ix1 r) = Cert.Spec.maxRef (Cert.Spec.xnorm (X x)) r := by
  unfold val_main_v37
  refine (Host.reduce_eq_fold_single FloatOps.maximumf _ _ reducesTo_S4096x4096_S4096_d1 redCols h_S_ (ix1 r)).trans ?_
  have hf : (val_main_v18 (F := Ideal) x ∘ redCols.lift (ix1 r))
      = fun c : Fin (S4096x4096.size 1) =>
          Cert.Spec.l2 (Cert.Spec.xnorm (X x)) r (⟨c.val, c.isLt⟩ : Fin 4096) := funext fun c => by
    show val_main_v18 (F := Ideal) x (redCols.lift (ix1 r) c) = _
    rw [lift_row, ref_l2]
  have hb : val_main_cst_4 (F := Ideal) (Shape.Idx.first h_S_) = ⊥ := by
    rw [val_main_cst_4_apply, Ideal.ofBits_def, ofBits_negInf_f32]
  rw [hf, hb]
  rfl

/-- The pushed-up entry at `(r, c)`: the distance plus the row's largest distance where the labels agree. -/
theorem ref_pushed (x : (⟨S4096x1024, .f32⟩ : BufTy).Contents (Elt Ideal)) (lab : (⟨S4096, .i32⟩ : BufTy).Contents (Elt Ideal))
    (r c : Fin 4096) :
    val_main_v43 (F := Ideal) x lab (ix2 r c)
      = Cert.Spec.l2 (Cert.Spec.xnorm (X x)) r c
        + Cert.Spec.maxRef (Cert.Spec.xnorm (X x)) r * (1 - (if L lab r = L lab c then (0 : EReal) else 1)) := by
  have h38 : idx_main_v38 (idx_main_v41 (ix2 r c)) = ix1 r := by funext a; match a with | ⟨0, _⟩ => rfl
  rw [val_main_v43_apply, val_main_v42_apply, val_main_v41_apply, val_main_v38_apply, h38, ref_max, ref_negMask, ref_l2,
    Ideal.addf_def, Ideal.mulf_def]

/-- The row minimum of the pushed-up entries. -/
theorem ref_neg (x : (⟨S4096x1024, .f32⟩ : BufTy).Contents (Elt Ideal)) (lab : (⟨S4096, .i32⟩ : BufTy).Contents (Elt Ideal))
    (r : Fin 4096) :
    val_main_v44 (F := Ideal) x lab (ix1 r) = Cert.Spec.negRef (Cert.Spec.xnorm (X x)) (L lab) r := by
  unfold val_main_v44
  refine (Host.reduce_eq_fold_single FloatOps.minimumf _ _ reducesTo_S4096x4096_S4096_d1 redCols h_S_ (ix1 r)).trans ?_
  have hf : (val_main_v43 (F := Ideal) x lab ∘ redCols.lift (ix1 r))
      = fun c : Fin (S4096x4096.size 1) => Cert.Spec.l2 (Cert.Spec.xnorm (X x)) r (⟨c.val, c.isLt⟩ : Fin 4096)
          + Cert.Spec.maxRef (Cert.Spec.xnorm (X x)) r
            * (1 - (if L lab r = L lab (⟨c.val, c.isLt⟩ : Fin 4096) then (0 : EReal) else 1)) :=
    funext fun c => by
      show val_main_v43 (F := Ideal) x lab (redCols.lift (ix1 r) c) = _
      rw [lift_row, ref_pushed]
  have hb : val_main_cst_6 (F := Ideal) (Shape.Idx.first h_S_) = ⊤ := by
    rw [val_main_cst_6_apply, Ideal.ofBits_def, ofBits_posInf_f32]
  rw [hf, hb]
  rfl

/-- The per-row loss array at any of its indices is the row's one-pass loss. -/
theorem ref_loss (x : (⟨S4096x1024, .f32⟩ : BufTy).Contents (Elt Ideal)) (lab : (⟨S4096, .i32⟩ : BufTy).Contents (Elt Ideal))
    (i : S4096x1.Idx) :
    val_main_v50 (F := Ideal) x lab i = Cert.Spec.lossRef (Cert.Spec.xnorm (X x)) (L lab) (i 0) := by
  have h36 : idx_main_v36 i = ix1 (⟨(i 0).val, (i 0).isLt⟩ : Fin 4096) := by funext a; match a with | ⟨0, _⟩ => rfl
  have h45 : idx_main_v45 i = ix1 (⟨(i 0).val, (i 0).isLt⟩ : Fin 4096) := by funext a; match a with | ⟨0, _⟩ => rfl
  rw [val_main_v50_apply, val_main_v48_apply, val_main_v47_apply, val_main_v36_apply, val_main_v45_apply, h36, h45,
    ref_pos, ref_neg, val_main_v46_apply, val_main_cst_7_apply, val_main_v49_apply, val_main_cst_8_apply]
  simp only [Ideal.maximumf_def, Ideal.subf_def, Ideal.addf_def, Ideal.ofBits_def, Ideal.ofBits_zero_f32]
  rfl

end Cert.ReferenceIdeal.RefValue

end
-- ==== Proof.Ref.Value.lean ====
/-
  The reference's result. After the per-row losses the program sums all of them from zero, divides by the number
  of rows and multiplies by one; that tail is kept folded as one function `TAILR` of the column of losses, and the
  run's result is `TAILR` of the rows' one-pass losses `Spec.lossRef`.
-/
import proofs.«400854_j84688165142763_3_alg».proof.Proof.Ref.Loss

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- The host lines after the per-row losses, as one function of the column of losses: the sum of all of them from
    zero, divided by the number of rows, times one. -/
def TAILR (y : FVec Ideal S4096x1 .f32) : FVec Ideal S_ .f32 :=
  mulf (Host.divf (Host.reduceAdd y (constant (F := Ideal) S_ .f32 0x00000000#32) reducesTo_S4096x1_S_d0_1 h_S_)
      (constant (F := Ideal) S_ .f32 0x45800000#32)) (constant (F := Ideal) S_ .f32 0x3F800000#32)

/-- The run's result is the tail of the rows' one-pass losses. -/
theorem ref_result (m : (ℓ : Loc nD τ sig) → Buf (Elt Ideal) ℓ) (c : Dev nD) :
    Cert.ReferenceIdeal.Value.res_main_v53 (F := Ideal) m c
      = TAILR (fun i => Cert.Spec.lossRef (Cert.Spec.xnorm (X (m ((c.tc : Thread nD τ).loc main_arg0))))
          (L (m ((c.tc : Thread nD τ).loc main_arg1))) (i 0)) := by
  rw [val_main_v53_eq]
  have h : val_main_v50 (F := Ideal) (m ((c.tc : Thread nD τ).loc main_arg0)) (m ((c.tc : Thread nD τ).loc main_arg1))
      = fun i => Cert.Spec.lossRef (Cert.Spec.xnorm (X (m ((c.tc : Thread nD τ).loc main_arg0))))
          (L (m ((c.tc : Thread nD τ).loc main_arg1))) (i 0) := funext fun i => ref_loss _ _ i
  unfold val_main_v53 val_main_v52 val_main_v51
  rw [h]
  rfl

end Cert.ReferenceIdeal.RefValue

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Math.Consts.lean ====
/-
  The four float constants of the loss as extended reals: two, one half, and the large finite seed of the
  running minimum, which lies above every squared distance of two normalised rows.
-/
import proofs.«400854_j84688165142763_3_alg».proof.Proof.Spec
import Idealize.ShloMosaic.PureOps.Ideal.Laws
import Mathlib.Data.EReal.Basic
import Mathlib.Data.EReal.Operations

noncomputable section

namespace Cert.Spec

open Idealize.ShloMosaic

/-- The pattern `0x40000000` denotes two. -/
theorem TWO_eq : TWO = ((2 : ℝ) : EReal) := by
  simp [TWO, Ideal.ofBits, Ideal.ieee, -EReal.coe_mul]; norm_num

/-- The pattern `0x3F000000` denotes one half. -/
theorem HALF_eq : HALF = ((1 / 2 : ℝ) : EReal) := by
  simp [HALF, Ideal.ofBits, Ideal.ieee, -EReal.coe_mul]; norm_num

/-- The large seed is a real number, `13234890 · 2^76`. -/
theorem BIG_eq : BIG = ((13234890 * 2 ^ 76 : ℝ) : EReal) := by
  simp [BIG, Ideal.ofBits, Ideal.ieee, -EReal.coe_mul]

/-- No squared distance of normalised rows, at most `4096`, reaches the large seed. -/
theorem le_BIG : ((4096 : ℝ) : EReal) ≤ BIG := by
  rw [BIG_eq, EReal.coe_le_coe_iff]; norm_num

end Cert.Spec

end
-- ==== Proof.Math.Bounds.lean ====
/-
  Rows of reals of modulus at most one: every inner product of two such rows of length 1024 is a real of modulus
  at most 1024, so every clipped squared distance `max (‖a‖² + ‖b‖² − 2⟨a, b⟩) 0` lies between `0` and `4096`,
  and the distance of a row to itself is exactly zero, `s + s − 2·s = 0` for the real `s = ‖a‖²`.
-/
import proofs.«400854_j84688165142763_3_alg».proof.Proof.Spec
import proofs.«400854_j84688165142763_3_alg».proof.Proof.LibERealRows
import proofs.«400854_j84688165142763_3_alg».proof.Proof.Math.Consts
import Mathlib.Algebra.Order.BigOperators.Group.Finset
import Mathlib.Algebra.Order.AbsoluteValue.Basic
import Mathlib.Tactic.Linarith
import Mathlib.Tactic.Ring

noncomputable section

namespace Cert.Spec

open Idealize.ShloMosaic
open scoped BigOperators

variable (xn : Fin 4096 → Fin 1024 → EReal)

/-- A row's squared norm is its inner product with itself. -/
theorem sq_eq_dot (r : Fin 4096) : sq xn r = dot xn r r := rfl

/-- The inner product of two rows of reals of modulus at most one is a real of modulus at most the row length. -/
theorem dot_real (hxn : ∀ r k, ∃ a : ℝ, xn r k = (a : EReal) ∧ |a| ≤ 1) (r c : Fin 4096) :
    ∃ d : ℝ, dot xn r c = (d : EReal) ∧ |d| ≤ 1024 := by
  choose a ha hb using hxn
  refine ⟨∑ k, a r k * a c k, ?_, ?_⟩
  · unfold dot
    rw [← Cert.ERealRows.coe_sum]
    exact Finset.sum_congr rfl fun k _ => by rw [ha r k, ha c k, EReal.coe_mul]
  · calc |∑ k, a r k * a c k| ≤ ∑ k, |a r k * a c k| := Finset.abs_sum_le_sum_abs _ _
      _ ≤ ∑ _k : Fin 1024, (1 : ℝ) := Finset.sum_le_sum fun k _ => by
          rw [abs_mul]
          nlinarith [abs_nonneg (a r k), abs_nonneg (a c k), hb r k, hb c k]
      _ = 1024 := by simp

/-- A clipped squared distance of two such rows lies between `0` and `4096 = 1024 + 1024 + 2·1024`. -/
theorem l2_bounds (hxn : ∀ r k, ∃ a : ℝ, xn r k = (a : EReal) ∧ |a| ≤ 1) (r c : Fin 4096) :
    0 ≤ l2 xn r c ∧ l2 xn r c ≤ ((4096 : ℝ) : EReal) := by
  obtain ⟨p, hp, hp'⟩ := dot_real xn hxn r r
  obtain ⟨q, hq, hq'⟩ := dot_real xn hxn c c
  obtain ⟨d, hd, hd'⟩ := dot_real xn hxn r c
  refine ⟨le_max_right _ _, ?_⟩
  unfold l2
  rw [sq_eq_dot, sq_eq_dot, hp, hq, hd, TWO_eq, ← EReal.coe_mul, ← EReal.coe_add, ← EReal.coe_sub]
  refine max_le ?_ (EReal.coe_nonneg.mpr (by norm_num))
  rw [EReal.coe_le_coe_iff]
  have h1 := abs_le.mp hp'
  have h2 := abs_le.mp hq'
  have h3 := abs_le.mp hd'
  linarith [h1.2, h2.2, h3.1]

/-- The distance of a row to itself is exactly zero. -/
theorem l2_self (hxn : ∀ r k, ∃ a : ℝ, xn r k = (a : EReal) ∧ |a| ≤ 1) (r : Fin 4096) : l2 xn r r = 0 := by
  obtain ⟨p, hp, _⟩ := dot_real xn hxn r r
  unfold l2
  rw [sq_eq_dot, hp, TWO_eq, ← EReal.coe_mul, ← EReal.coe_add, ← EReal.coe_sub]
  have h : p + p - 2 * p = 0 := by ring
  rw [h, EReal.coe_zero, max_self]

end Cert.Spec

end
-- ==== Proof.Math.Tiles.lean ====
/-
  The eight column tiles of 512 against the whole row of 4096.  Every column is column `cc` of tile `j` for exactly
  one pair `(j, cc)`, so the running sum over the eight tiles is the whole-row sum, and the running minimum and
  maximum, carried by their universal properties, are the seed combined with every entry of the row.
-/
import proofs.«400854_j84688165142763_3_alg».proof.Proof.Spec
import Mathlib.Data.Finset.Fold
import Mathlib.Algebra.BigOperators.Fin
import Mathlib.Algebra.BigOperators.Group.Finset.Basic
import Mathlib.Data.Fintype.BigOperators
import Mathlib.Data.EReal.Basic

noncomputable section

namespace Cert.Spec

open Idealize.ShloMosaic
open scoped BigOperators

/-- Tile number `j` read off its own index. -/
theorem tile_val (j : Fin 8) : tile j.val = j := Fin.ext (Nat.mod_eq_of_lt j.isLt)

/-- Every column lies in some tile: `c = 512 · (c / 512) + c % 512`. -/
theorem col_surj (c : Fin 4096) : ∃ j cc, col j cc = c :=
  ⟨⟨c.val / 512, by omega⟩, ⟨c.val % 512, Nat.mod_lt _ (by norm_num)⟩, Fin.ext (by simp only [col]; omega)⟩

/-- Tile and offset determine the column, and conversely. -/
theorem col_bijective : Function.Bijective (fun p : Fin 8 × Fin 512 => col p.1 p.2) := by
  constructor
  · rintro ⟨j, cc⟩ ⟨j', cc'⟩ h
    have h' : 512 * j.val + cc.val = 512 * j'.val + cc'.val := congrArg Fin.val h
    have hj : j.val = j'.val := by omega
    have hc : cc.val = cc'.val := by omega
    exact Prod.ext (Fin.ext hj) (Fin.ext hc)
  · intro c
    obtain ⟨j, cc, h⟩ := col_surj c
    exact ⟨(j, cc), h⟩

/-- A sum tile by tile is the sum over the whole row. -/
theorem sum_tiles (f : Fin 4096 → EReal) : ∑ j : Fin 8, ∑ cc : Fin 512, f (col j cc) = ∑ c, f c := by
  rw [← Fintype.sum_prod_type' (fun j cc => f (col j cc))]
  exact Fintype.sum_bijective _ col_bijective _ _ (fun _ => rfl)

variable (xn : Fin 4096 → Fin 1024 → EReal) (lab : Fin 4096 → BitVec 32) (r : Fin 4096)

/-! ### The running sum -/

/-- The running sum after `n` tiles is the sum of the first `n` tile shares. -/
theorem posAcc_eq_sum (n : ℕ) :
    posAcc xn lab r n = ∑ m ∈ Finset.range n, posTile xn lab r (tile m) := by
  induction n with
  | zero => simp [posAcc]
  | succ n ih => rw [posAcc, ih, Finset.sum_range_succ]

/-- After all eight tiles the running sum is the same-label sum over the whole row. -/
theorem posAcc_eight :
    posAcc xn lab r 8 = ∑ c : Fin 4096, if lab r = lab c ∧ r ≠ c then l2 xn r c else 0 := by
  rw [posAcc_eq_sum, Finset.sum_range (fun m => posTile xn lab r (tile m))]
  simp only [tile_val, posTile]
  exact sum_tiles (fun c => if lab r = lab c ∧ r ≠ c then l2 xn r c else 0)

/-! ### The running minimum -/

/-- What lies below one tile's minimum lies below each of its entries. -/
theorem le_negTile (z : EReal) (j : Fin 8) :
    z ≤ negTile xn lab r j ↔ ∀ cc, z ≤ (if lab r = lab (col j cc) then BIG else l2 xn r (col j cc)) := by
  unfold negTile
  rw [Finset.le_fold_min]
  simp only [le_top, true_and, Finset.mem_univ, forall_true_left]

/-- What lies below the running minimum after `n` tiles lies below the seed and below each of those tiles' minima. -/
theorem le_negAcc (z : EReal) (n : ℕ) :
    z ≤ negAcc xn lab r n ↔ z ≤ BIG ∧ ∀ m < n, z ≤ negTile xn lab r (tile m) := by
  induction n with
  | zero => simp [negAcc]
  | succ n ih => rw [negAcc, le_min_iff, ih, Nat.forall_lt_succ_right, and_assoc]

/-- After all eight tiles: below the seed and below every entry of the row, a same-label entry standing at the seed. -/
theorem le_negAcc_eight (z : EReal) :
    z ≤ negAcc xn lab r 8 ↔ z ≤ BIG ∧ ∀ c, z ≤ (if lab r = lab c then BIG else l2 xn r c) := by
  rw [le_negAcc]
  refine and_congr_right fun _ => ⟨fun h c => ?_, fun h m _ => ?_⟩
  · obtain ⟨j, cc, rfl⟩ := col_surj c
    have h' := (le_negTile xn lab r z (tile j.val)).mp (h j.val j.isLt) cc
    rwa [tile_val] at h'
  · exact (le_negTile xn lab r z _).mpr fun cc => h _

/-! ### The running maximum -/

/-- What lies above one tile's maximum lies above each of its entries. -/
theorem maxTile_le (z : EReal) (j : Fin 8) :
    maxTile xn r j ≤ z ↔ ∀ cc, l2 xn r (col j cc) ≤ z := by
  unfold maxTile
  rw [Finset.fold_max_le]
  simp only [bot_le, true_and, Finset.mem_univ, forall_true_left]

/-- What lies above the running maximum after `n` tiles lies above zero and above each of those tiles' maxima. -/
theorem maxAcc_le (z : EReal) (n : ℕ) :
    maxAcc xn r n ≤ z ↔ 0 ≤ z ∧ ∀ m < n, maxTile xn r (tile m) ≤ z := by
  induction n with
  | zero => simp [maxAcc]
  | succ n ih => rw [maxAcc, max_le_iff, ih, Nat.forall_lt_succ_right, and_assoc]

/-- After all eight tiles: above zero and above every entry of the row. -/
theorem maxAcc_eight_le (z : EReal) :
    maxAcc xn r 8 ≤ z ↔ 0 ≤ z ∧ ∀ c, l2 xn r c ≤ z := by
  rw [maxAcc_le]
  refine and_congr_right fun _ => ⟨fun h c => ?_, fun h m _ => ?_⟩
  · obtain ⟨j, cc, rfl⟩ := col_surj c
    have h' := (maxTile_le xn r z (tile j.val)).mp (h j.val j.isLt) cc
    rwa [tile_val] at h'
  · exact (maxTile_le xn r z _).mpr fun cc => h _

/-- The whole row's maximum, taken in one pass, lies below exactly the bounds of every entry. -/
theorem maxRef_le (z : EReal) : maxRef xn r ≤ z ↔ ∀ c, l2 xn r c ≤ z := by
  unfold maxRef
  rw [Finset.fold_max_le]
  simp only [bot_le, true_and, Finset.mem_univ, forall_true_left]

end Cert.Spec

end
-- ==== Proof.Math.Hardest.lean ====
/-
  The two hardest values agree.  In one pass every same-label entry of the row is pushed up by the row's largest
  distance `M`; the entry of the row against itself is zero and same-label, so it becomes exactly `M`, and every
  other pushed entry is at least `M`: the pushed minimum is `min (smallest other-label distance) M`.  Tile by tile
  a same-label entry stands at the large seed instead, which never wins below the seed, and the result is clipped by
  `M`; since `M ≤ 4096` lies below the seed, this is the same number.
-/
import proofs.«400854_j84688165142763_3_alg».proof.Proof.Spec
import proofs.«400854_j84688165142763_3_alg».proof.Proof.Math.Consts
import proofs.«400854_j84688165142763_3_alg».proof.Proof.Math.Tiles
import Mathlib.Data.EReal.Operations
import Mathlib.Order.Lattice

noncomputable section

namespace Cert.Spec

open Idealize.ShloMosaic
open scoped BigOperators

variable (xn : Fin 4096 → Fin 1024 → EReal) (lab : Fin 4096 → BitVec 32) (r : Fin 4096)

/-- The one-pass same-label sum: a mask of one keeps the entry and a mask of zero drops it. -/
theorem posRef_eq :
    posRef xn lab r = ∑ c : Fin 4096, if lab r = lab c ∧ r ≠ c then l2 xn r c else 0 := by
  unfold posRef
  refine Finset.sum_congr rfl fun c _ => ?_
  split_ifs
  · rw [one_mul]
  · rw [zero_mul]

/-- With nonnegative entries the running maximum seeded with zero is the whole row's maximum. -/
theorem maxAcc_eight_eq (h0 : ∀ c, 0 ≤ l2 xn r c) : maxAcc xn r 8 = maxRef xn r := by
  refine eq_of_forall_ge_iff fun z => ?_
  rw [maxAcc_eight_le, maxRef_le]
  exact ⟨fun h => h.2, fun h => ⟨le_trans (h0 r) (h r), h⟩⟩

/-- One entry of the pushed row: an other-label entry is left alone, a same-label entry is raised by `M`. -/
theorem pushed_entry (M : EReal) (c : Fin 4096) :
    l2 xn r c + M * (1 - (if lab r = lab c then (0 : EReal) else 1))
      = if lab r = lab c then l2 xn r c + M else l2 xn r c := by
  split_ifs
  · rw [sub_zero, mul_one]
  · have h : (1 : EReal) - 1 = 0 := by
      rw [← EReal.coe_one, ← EReal.coe_sub, sub_self, EReal.coe_zero]
    rw [h, mul_zero, add_zero]

/-- What lies below the pushed minimum lies below every pushed entry. -/
theorem le_negRef (z : EReal) :
    z ≤ negRef xn lab r
      ↔ ∀ c, z ≤ (if lab r = lab c then l2 xn r c + maxRef xn r else l2 xn r c) := by
  unfold negRef
  rw [Finset.le_fold_min]
  simp only [pushed_entry, le_top, true_and, Finset.mem_univ, forall_true_left]

/-- The tile-by-tile minimum clipped by the tile-by-tile maximum is the one-pass pushed minimum, for a row of
    distances between `0` and `4096` whose own entry is zero. -/
theorem hardest_eq (h0 : ∀ c, 0 ≤ l2 xn r c) (h1 : ∀ c, l2 xn r c ≤ ((4096 : ℝ) : EReal))
    (hd : l2 xn r r = 0) :
    min (negAcc xn lab r 8) (maxAcc xn r 8) = negRef xn lab r := by
  rw [maxAcc_eight_eq xn r h0]
  refine eq_of_forall_le_iff fun z => ?_
  rw [le_min_iff, le_negAcc_eight, le_negRef]
  have hM : maxRef xn r ≤ BIG := le_trans ((maxRef_le xn r _).mpr h1) le_BIG
  constructor
  · rintro ⟨⟨_, h⟩, hz⟩ c
    have hc := h c
    by_cases hs : lab r = lab c
    · rw [if_pos hs]
      exact le_trans hz (le_add_of_nonneg_left (h0 c))
    · rw [if_neg hs] at hc ⊢
      exact hc
  · intro h
    have hz : z ≤ maxRef xn r := by
      have hr := h r
      rwa [if_pos rfl, hd, zero_add] at hr
    refine ⟨⟨le_trans hz hM, fun c => ?_⟩, hz⟩
    have hc := h c
    by_cases hs : lab r = lab c
    · rw [if_pos hs]
      exact le_trans hz hM
    · rw [if_neg hs] at hc ⊢
      exact hc

end Cert.Spec

end
-- ==== Proof.Math.Loss.lean ====
/-
  The row's loss taken tile by tile is the row's loss taken in one pass, for rows of reals of modulus at most one:
  the same-label sums agree term by term and the two hardest values agree, so the two clipped margins are the same.
-/
import proofs.«400854_j84688165142763_3_alg».proof.Proof.Spec
import proofs.«400854_j84688165142763_3_alg».proof.Proof.Math.Bounds
import proofs.«400854_j84688165142763_3_alg».proof.Proof.Math.Tiles
import proofs.«400854_j84688165142763_3_alg».proof.Proof.Math.Hardest

noncomputable section

namespace Cert.Spec

open Idealize.ShloMosaic

/-- Tile by tile or in one pass, the loss of a row of normalised reals is the same extended real. -/
theorem lossK_eq_lossRef (xn : Fin 4096 → Fin 1024 → EReal) (lab : Fin 4096 → BitVec 32)
    (hxn : ∀ r k, ∃ a : ℝ, xn r k = (a : EReal) ∧ |a| ≤ 1) (r : Fin 4096) :
    lossK xn lab r = lossRef xn lab r := by
  unfold lossK lossRef
  rw [posAcc_eight, posRef_eq,
    hardest_eq xn lab r (fun c => (l2_bounds xn hxn r c).1) (fun c => (l2_bounds xn hxn r c).2)
      (l2_self xn hxn r)]

end Cert.Spec

end
-- ==== Proof.Pre.Facts.lean ====
/-
  What the precondition gives, and what normalising a row does to real entries.

  * The precondition "all (|x| < +∞)" over the float argument says that every entry is a real number
    (an extended real whose absolute value max x (−x) is below +∞ is neither infinity).
  * A row of reals divided by max (‖row‖, ε), ε a positive real, is again a row of reals, each of
    modulus at most one: the divisor n is a positive real, and |x_k| = √(x_k²) ≤ √(Σ x_k'²) = ‖row‖ ≤ n.
-/
import proofs.«400854_j84688165142763_3_alg».proof.Pre_finite_inputs
import proofs.«400854_j84688165142763_3_alg».proof.Proof.Gen.Pre_finite_inputs
import proofs.«400854_j84688165142763_3_alg».proof.Proof.Spec
import Idealize.ShloMosaic.Lib.ReduceAll
import Idealize.ShloMosaic.Lib.ValueIdx

noncomputable section

namespace Cert.PreFacts

open Idealize.ShloMosaic
open scoped BigOperators

/-! ## Finite inputs are real -/

/-- The scalar shape has one index. -/
instance : Subsingleton Cert.Pre_finite_inputs.S_.Idx := ⟨fun a b => funext fun d => d.elim0⟩

/-- The f32 pattern of +∞ denotes the top element. -/
theorem ofBits_posInf : Ideal.ofBits .f32 0x7F800000#32 = ⊤ := by
  simp [Ideal.ofBits, Ideal.ieee]

/-- An extended real whose absolute value max x (−x) lies strictly below +∞ is a real:
    at either infinity the absolute value is +∞. -/
theorem real_of_abs_lt_top (x : EReal) (h : max x (-x) < ⊤) : ∃ a : ℝ, x = (a : EReal) := by
  induction x using EReal.rec with
  | bot => simp at h
  | coe r => exact ⟨r, rfl⟩
  | top => simp at h

/-- The precondition all (|x| < +∞) read back: every entry of the float argument is a real.
    The integer argument is not constrained. -/
theorem real_of_pre [Cert.Pre_finite_inputs.Facts]
    (x : FVec Ideal Cert.Pre_finite_inputs.S4096x1024 .f32) (lab : IVec Cert.Pre_finite_inputs.S4096 32)
    (h : Cert.Pre_finite_inputs.fn (F := Ideal) x lab = fun _ => 1#1) :
    ∀ i : Cert.Pre_finite_inputs.S4096x1024.Idx, ∃ a : ℝ, x i = (a : EReal) := by
  intro i
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_posInf] at hc
  refine real_of_abs_lt_top (x i) ?_
  by_contra hn
  simp [Ideal.cmp, hn] at hc

/-! ## A normalised row of reals -/

/-- The lower clamp of the norm is a positive real, 9223372 · 2⁻⁶³ (about 10⁻¹²). -/
theorem eps_pos : ∃ e : ℝ, 0 < e ∧ Cert.Spec.EPS = (e : EReal) := by
  refine ⟨9223372 * (2 : ℝ) ^ (-63 : ℤ), by positivity, ?_⟩
  simp [Cert.Spec.EPS, Ideal.ofBits, Ideal.ieee]

/-- The inclusion of the reals in the extended reals respects addition. -/
def coeHom : ℝ →+ EReal := ⟨⟨fun r => (r : EReal), EReal.coe_zero⟩, EReal.coe_add⟩

/-- The sum of the squares of a family of reals, taken in the extended reals, is the real sum of squares. -/
theorem sum_sq_coe {ι : Type*} (s : Finset ι) (a : ι → ℝ) :
    ∑ k ∈ s, (a k : EReal) * (a k : EReal) = ((∑ k ∈ s, a k * a k : ℝ) : EReal) := by
  simp only [← EReal.coe_mul]
  exact (map_sum coeHom (fun k => a k * a k) s).symm

/-- A row of reals divided by its clamped norm is a row of reals of modulus at most one. -/
theorem xnorm_real_le_one (X : Fin 4096 → Fin 1024 → EReal) (hX : ∀ r k, ∃ a : ℝ, X r k = (a : EReal)) :
    ∀ r k, ∃ a : ℝ, Cert.Spec.xnorm X r k = (a : EReal) ∧ |a| ≤ 1 := by
  intro r k
  choose a ha using hX r
  obtain ⟨e, he0, he⟩ := eps_pos
  -- the squared norm is a nonnegative real s
  have hs : (0 : EReal) + ∑ k' : Fin 1024, X r k' * X r k' = ((∑ k' : Fin 1024, a k' * a k' : ℝ) : EReal) := by
    rw [zero_add, ← sum_sq_coe]
    exact Finset.sum_congr rfl fun k' _ => by rw [ha k']
  have hs0 : 0 ≤ ∑ k' : Fin 1024, a k' * a k' := Finset.sum_nonneg fun k' _ => mul_self_nonneg _
  -- so the norm is the real √s, and the divisor the positive real n = max √s ε
  have hsq : Ideal.sqrt ((∑ k' : Fin 1024, a k' * a k' : ℝ) : EReal)
      = ((Real.sqrt (∑ k' : Fin 1024, a k' * a k') : ℝ) : EReal) := by
    rw [Ideal.sqrt_coe, if_neg (not_lt.2 hs0)]
  have hn0 : 0 < max (Real.sqrt (∑ k' : Fin 1024, a k' * a k')) e := lt_of_lt_of_le he0 (le_max_right _ _)
  refine ⟨a k * (1 / max (Real.sqrt (∑ k' : Fin 1024, a k' * a k')) e), ?_, ?_⟩
  · unfold Cert.Spec.xnorm
    rw [hs, hsq, he, ← EReal.coe_strictMono.monotone.map_max, Ideal.div_coe hn0.ne', ha k, ← EReal.coe_mul]
  · -- |x_k| = √(x_k²) ≤ √s ≤ n
    have hak : |a k| ≤ Real.sqrt (∑ k' : Fin 1024, a k' * a k') := by
      rw [← Real.sqrt_mul_self_eq_abs]
      exact Real.sqrt_le_sqrt
        (Finset.single_le_sum (f := fun k' => a k' * a k') (fun k' _ => mul_self_nonneg (a k')) (Finset.mem_univ k))
    rw [abs_mul, abs_of_pos (one_div_pos.2 hn0), mul_one_div, div_le_one hn0]
    exact hak.trans (le_max_left _ _)

end Cert.PreFacts

end
-- ==== Proof.lean ====
/-
  Batch-hard triplet loss on L2-normalised rows: the Pallas kernel against its jnp reference, over the extended reals.

  Both programs normalise each row by its Euclidean norm (clamped below), take the squared distance of two rows as
  `‖a‖² + ‖b‖² − 2⟨a, b⟩` clipped at zero, and per row the loss `max (pos + 1/2 − hardest, 0)`, `pos` the sum of the
  distances to the other rows of the same label and `hardest` the smallest distance to a row of another label; the
  result is the mean of the rows' losses. The reference finds `hardest` in one pass, pushing every same-label entry up
  by the row's largest distance before taking the row minimum. The kernel walks the row in eight column tiles with a
  running sum, a running minimum seeded with 1e30 and a running maximum, and clips the minimum by the maximum at the
  last tile. The entry of a row against itself is exactly zero and same-label, so the reference's pushed minimum is
  the smaller of the other-label minimum and the row maximum; and a distance between normalised rows is at most 4096,
  far below the seed, so the kernel's clipped minimum is the same number (`Cert.Spec.lossK_eq_lossRef`). That no entry
  of a normalised row exceeds one in modulus is where the precondition — every input finite — is used.

  The frames of the two kernel programs come from one run of @main written against the launch theorems (two of the
  pallas_call's windows stage the same array, each holding half of it through the region); the reference's frame and
  value are its generated run.
-/
import proofs.«400854_j84688165142763_3_alg».proof.Defs
import proofs.«400854_j84688165142763_3_alg».proof.Proof.Gen.Kernel
import proofs.«400854_j84688165142763_3_alg».proof.Proof.Gen.KernelIdeal
import proofs.«400854_j84688165142763_3_alg».proof.Proof.Gen.ReferenceIdeal
import proofs.«400854_j84688165142763_3_alg».proof.Proof.Gen.Pre_finite_inputs
import proofs.«400854_j84688165142763_3_alg».proof.Proof.Gen.ReferenceIdeal.Run
import proofs.«400854_j84688165142763_3_alg».proof.Proof.Gen.ReferenceIdeal.Read
import proofs.«400854_j84688165142763_3_alg».proof.Proof.K.Frame
import proofs.«400854_j84688165142763_3_alg».proof.Proof.K.Launch
import proofs.«400854_j84688165142763_3_alg».proof.Proof.KI.Frame
import proofs.«400854_j84688165142763_3_alg».proof.Proof.KI.Launch
import proofs.«400854_j84688165142763_3_alg».proof.Proof.KI.Value
import proofs.«400854_j84688165142763_3_alg».proof.Proof.Ref.Value
import proofs.«400854_j84688165142763_3_alg».proof.Proof.Math.Loss
import proofs.«400854_j84688165142763_3_alg».proof.Proof.Pre.Facts
import Idealize.ShloMosaic.Adequacy
import Idealize.ShloMosaic.Init

noncomputable section

namespace Cert.Proof

open Idealize.ShloMosaic Idealize.SL.Sem

/-- The word-level kernel program runs to the end and leaves its arguments as they were. -/
theorem frame_K : Cert.frame_Kernel := fun m ρ _ =>
  (θ_run (Cert.Kernel.defs (F := Bits)) _ _).mono (fun _ h c => ⟨(h c).2.1, (h c).2.2⟩)
    (Cert.Kernel.Hand.run_of m ρ (Cert.Kernel.Hand.dats m) (Cert.Kernel.Hand.A_eq m) (Cert.Kernel.Hand.q_eq m) (fun _ _ => rfl)
      (Cert.Kernel.Hand.body_obligation m) (Cert.Kernel.Hand.hin m) (Cert.Kernel.Hand.hout m))

/-- So does the idealized kernel program. -/
theorem frame_KI : Cert.frame_KernelIdeal := fun m ρ _ =>
  (θ_run (Cert.KernelIdeal.defs (F := Ideal)) _ _).mono (fun _ h c => ⟨(h c).2.1, (h c).2.2⟩)
    (Cert.KernelIdeal.Hand.run_of m ρ (Cert.KernelIdeal.Hand.dats m) (Cert.KernelIdeal.Hand.A_eq m) (Cert.KernelIdeal.Hand.q_eq m) (fun _ _ => rfl)
      (Cert.KernelIdeal.Hand.body_obligation m) (Cert.KernelIdeal.Hand.hin m) (Cert.KernelIdeal.Hand.hout m))

/-- The reference's frame: its generated run with the result dropped. -/
theorem frame_RI : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read over the extended reals. -/
theorem preserves : Cert.preserves_Kernel_KernelIdeal := trivial

/-- Over the extended reals, from memories agreeing on the arguments, both programs end with the mean of the rows'
    losses: the kernel's rows tile by tile (`Cert.Spec.lossK`), the reference's in one pass (`Cert.Spec.lossRef`), equal
    for normalised finite rows; the host operations after the kernel's region are the reference's last operations. -/
theorem algebraic : Cert.algebraic_KernelIdeal_ReferenceIdeal := by
  intro m ρ m' ρ' hpre hagree
  refine ⟨fun c => Cert.KernelIdeal.Hand.tailFn (F := Ideal)
      (fun i => Cert.Spec.lossK (Cert.KernelIdeal.Hand.normRows m c) (Cert.KernelIdeal.Hand.argLabels m c) (i 0)), ?_, ?_⟩
  · refine (θ_run (Cert.KernelIdeal.defs (F := Ideal)) _ _).mono (fun _ h c => ⟨(h c).1.trans ?_, (h c).2.1, (h c).2.2⟩)
      (Cert.KernelIdeal.Hand.run_of m ρ (Cert.KernelIdeal.Hand.dats m) (Cert.KernelIdeal.Hand.A_eq m) (Cert.KernelIdeal.Hand.q_eq m) (fun _ _ => rfl)
        (Cert.KernelIdeal.Hand.body_obligation m) (Cert.KernelIdeal.Hand.hin m) (Cert.KernelIdeal.Hand.hout m))
    exact congrArg (Cert.KernelIdeal.Hand.tailFn (F := Ideal)) (Cert.KernelIdeal.Hand.value m c)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_result m' c, (hagree c).1, (hagree c).2]
    show Cert.KernelIdeal.Hand.tailFn (F := Ideal) _ = _
    congr 1
    funext i
    exact (Cert.Spec.lossK_eq_lossRef _ _
      (Cert.PreFacts.xnorm_real_le_one _ (fun r k => Cert.PreFacts.real_of_pre _ _ (hpre c) _)) (i 0)).symm

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
